-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_arg1)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg1) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg1) = v0 c
          ∧ r.2.mem ((c.tc : Thread Cert.ReferenceIdeal.nD Cert.ReferenceIdeal.τ).loc Cert.ReferenceIdeal.main_v189) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x33x33x33 : Shape := ⟨4, ![3, 33, 33, 33]⟩
abbrev S8x3x1024x1024 : Shape := ⟨4, ![8, 3, 1024, 1024]⟩
abbrev S_ : Shape := ⟨0, ![]⟩

class Facts : Prop where
  bcast_S_S3x33x33x33 : S_.BroadcastsInDim S3x33x33x33 (![] : Fin 0 → Fin S3x33x33x33.rank)
  reducesTo_S3x33x33x33_S_d0_1_2_3 : S3x33x33x33.ReducesTo [0, 1, 2, 3] S_
  h_S_ : 0 < S_.numel
  bcast_S_S8x3x1024x1024 : S_.BroadcastsInDim S8x3x1024x1024 (![] : Fin 0 → Fin S8x3x1024x1024.rank)
  reducesTo_S8x3x1024x1024_S_d0_1_2_3 : S8x3x1024x1024.ReducesTo [0, 1, 2, 3] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : IVec S3x33x33x33 32) (main_arg1 : FVec F S3x33x33x33 .f32) (main_arg2 : FVec F S8x3x1024x1024 .f32) : IVec S_ 1 :=
  let main_v0 : FVec F S3x33x33x33 .f32 := Host.absf main_arg1
  let main_cst : FVec F S_ .f32 := constant S_ .f32 0x7F800000#32
  let main_v1 : FVec F S3x33x33x33 .f32 := broadcastInDim S3x33x33x33 ![] bcast_S_S3x33x33x33 main_cst
  let main_v2 : IVec S3x33x33x33 1 := cmpf .olt main_v0 main_v1
  let main_c : IVec S_ 1 := constantI S_ 1 1#1
  let main_v3 : IVec S_ 1 := (fun x v => Host.reduce IntOp.andi x v reducesTo_S3x33x33x33_S_d0_1_2_3 h_S_) main_v2 main_c
  let main_v4 : FVec F S8x3x1024x1024 .f32 := Host.absf main_arg2
  let main_cst_0 : FVec F S_ .f32 := constant S_ .f32 0x7F800000#32
  let main_v5 : FVec F S8x3x1024x1024 .f32 := broadcastInDim S8x3x1024x1024 ![] bcast_S_S8x3x1024x1024 main_cst_0
  let main_v6 : IVec S8x3x1024x1024 1 := cmpf .olt main_v4 main_v5
  let main_c_1 : IVec S_ 1 := constantI S_ 1 1#1
  let main_v7 : IVec S_ 1 := (fun x v => Host.reduce IntOp.andi x v reducesTo_S8x3x1024x1024_S_d0_1_2_3 h_S_) main_v6 main_c_1
  let main_v8 : IVec S_ 1 := andi main_v3 main_v7
  let main_cst_2 : FVec F S_ .f32 := constant S_ .f32 0x00000000#32
  let main_v9 : FVec F S8x3x1024x1024 .f32 := broadcastInDim S8x3x1024x1024 ![] bcast_S_S8x3x1024x1024 main_cst_2
  let main_v10 : IVec S8x3x1024x1024 1 := cmpf .oge main_arg2 main_v9
  let main_c_3 : IVec S_ 1 := constantI S_ 1 1#1
  let main_v11 : IVec S_ 1 := (fun x v => Host.reduce IntOp.andi x v reducesTo_S8x3x1024x1024_S_d0_1_2_3 h_S_) main_v10 main_c_3
  let main_v12 : IVec S_ 1 := andi main_v8 main_v11
  let main_cst_4 : FVec F S_ .f32 := constant S_ .f32 0x3F800000#32
  let main_v13 : FVec F S8x3x1024x1024 .f32 := broadcastInDim S8x3x1024x1024 ![] bcast_S_S8x3x1024x1024 main_cst_4
  let main_v14 : IVec S8x3x1024x1024 1 := cmpf .olt main_arg2 main_v13
  let main_c_5 : IVec S_ 1 := constantI S_ 1 1#1
  let main_v15 : IVec S_ 1 := (fun x v => Host.reduce IntOp.andi x v reducesTo_S8x3x1024x1024_S_d0_1_2_3 h_S_) main_v14 main_c_5
  fn_part1 (F := F) main_v12 main_v15
-- ==== Kernel.lean ====
abbrev S3x33x33x33 : Shape := ⟨4, ![3, 33, 33, 33]⟩
abbrev S8x3x1024x1024 : Shape := ⟨4, ![8, 3, 1024, 1024]⟩
abbrev S33x33x33x3 : Shape := ⟨4, ![33, 33, 33, 3]⟩
abbrev S1089x99 : Shape := ⟨2, ![1089, 99]⟩
abbrev S1x3x16x128 : Shape := ⟨4, ![1, 3, 16, 128]⟩
abbrev S1x1x16x128 : Shape := ⟨4, ![1, 1, 16, 128]⟩
abbrev S16x128 : Shape := ⟨2, ![16, 128]⟩
abbrev S2048 : Shape := ⟨1, ![2048]⟩
abbrev S1x33 : Shape := ⟨2, ![1, 33]⟩
abbrev S2048x1 : Shape := ⟨2, ![2048, 1]⟩
abbrev S2048x33 : Shape := ⟨2, ![2048, 33]⟩
abbrev S2048x33x1 : Shape := ⟨3, ![2048, 33, 1]⟩
abbrev S2048x1x33 : Shape := ⟨3, ![2048, 1, 33]⟩
abbrev S2048x33x33 : Shape := ⟨3, ![2048, 33, 33]⟩
abbrev S2048x1089 : Shape := ⟨2, ![2048, 1089]⟩
abbrev S2048x99 : Shape := ⟨2, ![2048, 99]⟩
abbrev S2048x33x3 : Shape := ⟨3, ![2048, 33, 3]⟩
abbrev S2048x3 : Shape := ⟨2, ![2048, 3]⟩

abbrev nBuf : Space → Nat
  | .hbm => 7
  | .vmem => 5
  | .smem => 0
  | _ => 0

abbrev bufTy : (tb : Table) → Fin (tcTables nBuf tb) → BufTy
  | .hbm, ⟨0, _⟩ => ⟨S3x33x33x33, .i32⟩
  | .hbm, ⟨1, _⟩ => ⟨S3x33x33x33, .f32⟩
  | .hbm, ⟨2, _⟩ => ⟨S8x3x1024x1024, .f32⟩
  | .hbm, ⟨3, _⟩ => ⟨S33x33x33x3, .f32⟩
  | .hbm, ⟨4, _⟩ => ⟨S1089x99, .f32⟩
  | .hbm, ⟨5, _⟩ => ⟨S1089x99, .bf16⟩
  | .hbm, ⟨6, _⟩ => ⟨S8x3x1024x1024, .f32⟩
  | .local _ .vmem, ⟨0, _⟩ => ⟨S1x3x16x128, .f32⟩
  | .local _ .vmem, ⟨1, _⟩ => ⟨S1x3x16x128, .f32⟩
  | .local _ .vmem, ⟨2, _⟩ => ⟨S1089x99, .bf16⟩
  | .local _ .vmem, ⟨3, _⟩ => ⟨S1x3x16x128, .f32⟩
  | .local _ .vmem, ⟨4, _⟩ => ⟨S1x3x16x128, .f32⟩
  | _, _ => ⟨S3x33x33x33, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 64, 8], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat, arg2.toNat]

abbrev stage0_0 : Fin 2 → Memref sig .tc .vmem S1x3x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1089x99 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x3x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  transposes_S3x33x33x33_S33x33x33x3_1_2_3_0 : S3x33x33x33.Transposes [1, 2, 3, 0] S33x33x33x3
  shapeCasts_S33x33x33x3_S1089x99 : S33x33x33x3.ShapeCasts S1089x99
  bitsLt_bf16_f32 : FTy.bits .bf16 < FTy.bits .f32
  inb_S1x3x16x128_S1x1x16x128_0_0_0_0 : ∀ a, (![0, 0, 0, 0] : Fin 4 → Nat) a + S1x1x16x128.size a ≤ S1x3x16x128.size a
  h_S1x1x16x128 : 0 < S1x1x16x128.numel
  shapeCasts_S1x1x16x128_S16x128 : S1x1x16x128.ShapeCasts S16x128
  shapeCasts_S16x128_S2048 : S16x128.ShapeCasts S2048
  inb_S1x3x16x128_S1x1x16x128_0_1_0_0 : ∀ a, (![0, 1, 0, 0] : Fin 4 → Nat) a + S1x1x16x128.size a ≤ S1x3x16x128.size a
  inb_S1x3x16x128_S1x1x16x128_0_2_0_0 : ∀ a, (![0, 2, 0, 0] : Fin 4 → Nat) a + S1x1x16x128.size a ≤ S1x3x16x128.size a
  iota_S1x33_d1_w32 : S1x33.Iotas .tc 32 [1]
  shapeCasts_S2048_S2048x1 : S2048.ShapeCasts S2048x1
  broadcasts_S1x33_S2048x33 : S1x33.Broadcasts S2048x33
  broadcasts_S2048x1_S2048x33 : S2048x1.Broadcasts S2048x33
  shapeCasts_S2048x1_S2048x1 : S2048x1.ShapeCasts S2048x1
  shapeCasts_S2048x33_S2048x33x1 : S2048x33.ShapeCasts S2048x33x1
  shapeCasts_S2048x33_S2048x1x33 : S2048x33.ShapeCasts S2048x1x33
  broadcasts_S2048x33x1_S2048x33x33 : S2048x33x1.Broadcasts S2048x33x33
  broadcasts_S2048x1x33_S2048x33x33 : S2048x1x33.Broadcasts S2048x33x33
  shapeCasts_S2048x33x33_S2048x1089 : S2048x33x33.ShapeCasts S2048x1089
  inb_S1089x99_S1089x99_0_0 : ∀ a, (![0, 0] : Fin 2 → Nat) a + S1089x99.size a ≤ S1089x99.size a
  h_S1089x99 : 0 < S1089x99.numel
  shapeCasts_S1089x99_S1089x99 : S1089x99.ShapeCasts S1089x99
  shapeCasts_S2048x99_S2048x33x3 : S2048x99.ShapeCasts S2048x33x3
  broadcasts_S2048x33x1_S2048x33x3 : S2048x33x1.Broadcasts S2048x33x3
  reduces_S2048x33x3_S2048x3 : S2048x33x3.Reduces [1] S2048x3
  slices_S2048x3_o0_0_S2048x1 : S2048x3.Slices ![0, 0] S2048x1
  shapeCasts_S2048x1_S2048 : S2048x1.ShapeCasts S2048
  shapeCasts_S2048_S16x128 : S2048.ShapeCasts S16x128
  shapeCasts_S16x128_S1x1x16x128 : S16x128.ShapeCasts S1x1x16x128
  slices_S2048x3_o0_1_S2048x1 : S2048x3.Slices ![0, 1] S2048x1
  slices_S2048x3_o0_2_S2048x1 : S2048x3.Slices ![0, 2] S2048x1
  dot_S2048x1089_S1089x99_S2048x99_1_0_0_1_n_n_wf : DotDims.WF S2048x1089 S1089x99 S2048x99 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x16x128.size a ≤ S8x3x1024x1024.size a
  hwx0_0 : ∀ i : grid0.Coords, EltTy.bits .f32 = 32 ∨ (Rect.block (s := S8x3x1024x1024) S1x3x16x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1089x99.size a ≤ S1089x99.size a
  hwx0_1 : ∀ i : grid0.Coords, EltTy.bits .bf16 = 32 ∨ (Rect.block (s := S1089x99) S1089x99.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x16x128.size a ≤ S8x3x1024x1024.size a
  hwx0_2 : ∀ i : grid0.Coords, EltTy.bits .f32 = 32 ∨ (Rect.block (s := S8x3x1024x1024) S1x3x16x128.size (cc0_transform_2 i) (hinb0_2 i)).WholeWords (EltTy.packing .f32)

variable [Facts₀]

def dot_S2048x1089_S1089x99_S2048x99_1_0_0_1_n_n : DotDims S2048x1089 S1089x99 S2048x99 where
  lhsContracting := [1]
  rhsContracting := [0]
  lhsNonContracting := [0]
  rhsNonContracting := [1]
  lhsBatch := []
  rhsBatch := []
  wf := dot_S2048x1089_S1089x99_S2048x99_1_0_0_1_n_n_wf

abbrev win0_0 : Pipeline.Window sig grid0 :=
  Pipeline.Window.ofSpec (Memref.whole main_arg2) S1x3x16x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1089x99.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x3x16x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S3x33x33x33 : Shape := ⟨4, ![3, 33, 33, 33]⟩
abbrev S8x3x1024x1024 : Shape := ⟨4, ![8, 3, 1024, 1024]⟩
abbrev S8x1x1024x1024 : Shape := ⟨4, ![8, 1, 1024, 1024]⟩
abbrev S8x1024x1024 : Shape := ⟨3, ![8, 1024, 1024]⟩
abbrev S_ : Shape := ⟨0, ![]⟩
abbrev S3x35937 : Shape := ⟨2, ![3, 35937]⟩
abbrev S8x1024x1024x1 : Shape := ⟨4, ![8, 1024, 1024, 1]⟩
abbrev S3x8x1024x1024 : Shape := ⟨4, ![3, 8, 1024, 1024]⟩

abbrev nBuf : Space → Nat
  | .hbm => 238
  | .vmem => 0
  | .smem => 0
  | _ => 0

abbrev hbmTy0_0 (i : Nat) : BufTy := match i % 128 with
  | 0 => ⟨S3x33x33x33, .i32⟩
  | 1 => ⟨S3x33x33x33, .f32⟩
  | 2 => ⟨S8x3x1024x1024, .f32⟩
  | 3 => ⟨S8x1x1024x1024, .f32⟩
  | 4 => ⟨S8x1024x1024, .f32⟩
  | 5 => ⟨S8x1x1024x1024, .f32⟩
  | 6 => ⟨S8x1024x1024, .f32⟩
  | 7 => ⟨S8x1x1024x1024, .f32⟩
  | 8 => ⟨S8x1024x1024, .f32⟩
  | 9 => ⟨S_, .f32⟩
  | 10 => ⟨S8x1024x1024, .f32⟩
  | 11 => ⟨S8x1024x1024, .f32⟩
  | 12 => ⟨S8x1024x1024, .f32⟩
  | 13 => ⟨S8x1024x1024, .i32⟩
  | 14 => ⟨S_, .f32⟩
  | 15 => ⟨S8x1024x1024, .f32⟩
  | 16 => ⟨S8x1024x1024, .f32⟩
  | 17 => ⟨S8x1024x1024, .f32⟩
  | 18 => ⟨S8x1024x1024, .i32⟩
  | 19 => ⟨S_, .f32⟩
  | 20 => ⟨S8x1024x1024, .f32⟩
  | 21 => ⟨S8x1024x1024, .f32⟩
  | 22 => ⟨S8x1024x1024, .f32⟩
  | 23 => ⟨S8x1024x1024, .i32⟩
  | 24 => ⟨S_, .f32⟩
  | 25 => ⟨S8x1024x1024, .f32⟩
  | 26 => ⟨S8x1024x1024, .f32⟩
  | 27 => ⟨S8x1024x1024, .f32⟩
  | 28 => ⟨S8x1024x1024, .f32⟩
  | 29 => ⟨S_, .f32⟩
  | 30 => ⟨S8x1024x1024, .f32⟩
  | 31 => ⟨S8x1024x1024, .f32⟩
  | 32 => ⟨S8x1024x1024, .f32⟩
  | 33 => ⟨S8x1024x1024, .f32⟩
  | 34 => ⟨S_, .f32⟩
  | 35 => ⟨S8x1024x1024, .f32⟩
  | 36 => ⟨S8x1024x1024, .f32⟩
  | 37 => ⟨S8x1024x1024, .f32⟩
  | 38 => ⟨S8x1024x1024, .f32⟩
  | 39 => ⟨S_, .i32⟩
  | 40 => ⟨S8x1024x1024, .i32⟩
  | 41 => ⟨S8x1024x1024, .i32⟩
  | 42 => ⟨S8x1024x1024, .i32⟩
  | 43 => ⟨S_, .i32⟩
  | 44 => ⟨S8x1024x1024, .i32⟩
  | 45 => ⟨S8x1024x1024, .i32⟩
  | 46 => ⟨S_, .i32⟩
  | 47 => ⟨S8x1024x1024, .i32⟩
  | 48 => ⟨S8x1024x1024, .i32⟩
  | 49 => ⟨S8x1024x1024, .i32⟩
  | 50 => ⟨S3x35937, .f32⟩
  | 51 => ⟨S_, .f32⟩
  | 52 => ⟨S8x1024x1024, .f32⟩
  | 53 => ⟨S8x1024x1024, .f32⟩
  | 54 => ⟨S_, .f32⟩
  | 55 => ⟨S8x1024x1024, .f32⟩
  | 56 => ⟨S8x1024x1024, .f32⟩
  | 57 => ⟨S8x1024x1024, .f32⟩
  | 58 => ⟨S_, .f32⟩
  | 59 => ⟨S8x1024x1024, .f32⟩
  | 60 => ⟨S8x1024x1024, .f32⟩
  | 61 => ⟨S8x1024x1024, .f32⟩
  | 62 => ⟨S_, .f32⟩
  | 63 => ⟨S8x1024x1024, .f32⟩
  | 64 => ⟨S8x1024x1024, .f32⟩
  | 65 => ⟨S8x1024x1024, .f32⟩
  | 66 => ⟨S_, .f32⟩
  | 67 => ⟨S8x1024x1024, .f32⟩
  | 68 => ⟨S8x1024x1024, .f32⟩
  | 69 => ⟨S8x1024x1024, .f32⟩
  | 70 => ⟨S_, .f32⟩
  | 71 => ⟨S8x1024x1024, .f32⟩
  | 72 => ⟨S8x1024x1024, .f32⟩
  | 73 => ⟨S8x1024x1024, .f32⟩
  | 74 => ⟨S_, .f32⟩
  | 75 => ⟨S8x1024x1024, .f32⟩
  | 76 => ⟨S8x1024x1024, .f32⟩
  | 77 => ⟨S8x1024x1024, .f32⟩
  | 78 => ⟨S8x1024x1024, .f32⟩
  | 79 => ⟨S_, .f32⟩
  | 80 => ⟨S8x1024x1024, .f32⟩
  | 81 => ⟨S8x1024x1024, .f32⟩
  | 82 => ⟨S8x1024x1024, .f32⟩
  | 83 => ⟨S_, .f32⟩
  | 84 => ⟨S8x1024x1024, .f32⟩
  | 85 => ⟨S8x1024x1024, .f32⟩
  | 86 => ⟨S_, .f32⟩
  | 87 => ⟨S8x1024x1024, .f32⟩
  | 88 => ⟨S8x1024x1024, .f32⟩
  | 89 => ⟨S8x1024x1024, .f32⟩
  | 90 => ⟨S8x1024x1024, .f32⟩
  | 91 => ⟨S_, .f32⟩
  | 92 => ⟨S8x1024x1024, .f32⟩
  | 93 => ⟨S8x1024x1024, .f32⟩
  | 94 => ⟨S8x1024x1024, .f32⟩
  | 95 => ⟨S8x1024x1024, .f32⟩
  | 96 => ⟨S_, .f32⟩
  | 97 => ⟨S8x1024x1024, .f32⟩
  | 98 => ⟨S8x1024x1024, .f32⟩
  | 99 => ⟨S8x1024x1024, .f32⟩
  | 100 => ⟨S8x1024x1024, .f32⟩
  | 101 => ⟨S8x1024x1024, .f32⟩
  | 102 => ⟨S8x1024x1024, .f32⟩
  | 103 => ⟨S_, .i32⟩
  | 104 => ⟨S8x1024x1024, .i32⟩
  | 105 => ⟨S8x1024x1024, .i32⟩
  | 106 => ⟨S_, .i32⟩
  | 107 => ⟨S8x1024x1024, .i32⟩
  | 108 => ⟨S8x1024x1024, .i1⟩
  | 109 => ⟨S_, .i32⟩
  | 110 => ⟨S8x1024x1024, .i32⟩
  | 111 => ⟨S8x1024x1024, .i32⟩
  | 112 => ⟨S8x1024x1024, .i32⟩
  | 113 => ⟨S8x1024x1024x1, .i32⟩
  | 114 => ⟨S3x8x1024x1024, .f32⟩
  | 115 => ⟨S8x3x1024x1024, .f32⟩
  | 116 => ⟨S8x1x1024x1024, .f32⟩
  | 117 => ⟨S8x3x1024x1024, .f32⟩
  | 118 => ⟨S8x3x1024x1024, .f32⟩
  | 119 => ⟨S_, .i32⟩
  | 120 => ⟨S8x1024x1024, .i32⟩
  | 121 => ⟨S8x1024x1024, .i32⟩
  | 122 => ⟨S_, .i32⟩
  | 123 => ⟨S8x1024x1024, .i32⟩
  | 124 => ⟨S8x1024x1024, .i1⟩
  | 125 => ⟨S_, .i32⟩
  | 126 => ⟨S8x1024x1024, .i32⟩
  | 127 => ⟨S8x1024x1024, .i32⟩
  | _ => ⟨S3x33x33x33, .i32⟩

abbrev hbmTy0_1 (i : Nat) : BufTy := match i % 128 with
  | 0 => ⟨S8x1024x1024, .i32⟩
  | 1 => ⟨S8x1024x1024x1, .i32⟩
  | 2 => ⟨S3x8x1024x1024, .f32⟩
  | 3 => ⟨S8x3x1024x1024, .f32⟩
  | 4 => ⟨S8x1x1024x1024, .f32⟩
  | 5 => ⟨S8x3x1024x1024, .f32⟩
  | 6 => ⟨S8x3x1024x1024, .f32⟩
  | 7 => ⟨S8x3x1024x1024, .f32⟩
  | 8 => ⟨S_, .i32⟩
  | 9 => ⟨S8x1024x1024, .i32⟩
  | 10 => ⟨S8x1024x1024, .i32⟩
  | 11 => ⟨S_, .i32⟩
  | 12 => ⟨S8x1024x1024, .i32⟩
  | 13 => ⟨S8x1024x1024, .i1⟩
  | 14 => ⟨S_, .i32⟩
  | 15 => ⟨S8x1024x1024, .i32⟩
  | 16 => ⟨S8x1024x1024, .i32⟩
  | 17 => ⟨S8x1024x1024, .i32⟩
  | 18 => ⟨S8x1024x1024x1, .i32⟩
  | 19 => ⟨S3x8x1024x1024, .f32⟩
  | 20 => ⟨S8x3x1024x1024, .f32⟩
  | 21 => ⟨S8x1x1024x1024, .f32⟩
  | 22 => ⟨S8x3x1024x1024, .f32⟩
  | 23 => ⟨S8x3x1024x1024, .f32⟩
  | 24 => ⟨S8x3x1024x1024, .f32⟩
  | 25 => ⟨S_, .i32⟩
  | 26 => ⟨S8x1024x1024, .i32⟩
  | 27 => ⟨S8x1024x1024, .i32⟩
  | 28 => ⟨S_, .i32⟩
  | 29 => ⟨S8x1024x1024, .i32⟩
  | 30 => ⟨S8x1024x1024, .i1⟩
  | 31 => ⟨S_, .i32⟩
  | 32 => ⟨S8x1024x1024, .i32⟩
  | 33 => ⟨S8x1024x1024, .i32⟩
  | 34 => ⟨S8x1024x1024, .i32⟩
  | 35 => ⟨S8x1024x1024x1, .i32⟩
  | 36 => ⟨S3x8x1024x1024, .f32⟩
  | 37 => ⟨S8x3x1024x1024, .f32⟩
  | 38 => ⟨S8x1x1024x1024, .f32⟩
  | 39 => ⟨S8x3x1024x1024, .f32⟩
  | 40 => ⟨S8x3x1024x1024, .f32⟩
  | 41 => ⟨S8x3x1024x1024, .f32⟩
  | 42 => ⟨S_, .i32⟩
  | 43 => ⟨S8x1024x1024, .i32⟩
  | 44 => ⟨S8x1024x1024, .i32⟩
  | 45 => ⟨S_, .i32⟩
  | 46 => ⟨S8x1024x1024, .i32⟩
  | 47 => ⟨S8x1024x1024, .i1⟩
  | 48 => ⟨S_, .i32⟩
  | 49 => ⟨S8x1024x1024, .i32⟩
  | 50 => ⟨S8x1024x1024, .i32⟩
  | 51 => ⟨S8x1024x1024, .i32⟩
  | 52 => ⟨S8x1024x1024x1, .i32⟩
  | 53 => ⟨S3x8x1024x1024, .f32⟩
  | 54 => ⟨S8x3x1024x1024, .f32⟩
  | 55 => ⟨S8x1x1024x1024, .f32⟩
  | 56 => ⟨S8x3x1024x1024, .f32⟩
  | 57 => ⟨S8x3x1024x1024, .f32⟩
  | 58 => ⟨S8x3x1024x1024, .f32⟩
  | 59 => ⟨S_, .i32⟩
  | 60 => ⟨S8x1024x1024, .i32⟩
  | 61 => ⟨S8x1024x1024, .i32⟩
  | 62 => ⟨S_, .i32⟩
  | 63 => ⟨S8x1024x1024, .i32⟩
  | 64 => ⟨S8x1024x1024, .i1⟩
  | 65 => ⟨S_, .i32⟩
  | 66 => ⟨S8x1024x1024, .i32⟩
  | 67 => ⟨S8x1024x1024, .i32⟩
  | 68 => ⟨S8x1024x1024, .i32⟩
  | 69 => ⟨S8x1024x1024x1, .i32⟩
  | 70 => ⟨S3x8x1024x1024, .f32⟩
  | 71 => ⟨S8x3x1024x1024, .f32⟩
  | 72 => ⟨S8x1x1024x1024, .f32⟩
  | 73 => ⟨S8x3x1024x1024, .f32⟩
  | 74 => ⟨S8x3x1024x1024, .f32⟩
  | 75 => ⟨S8x3x1024x1024, .f32⟩
  | 76 => ⟨S_, .i32⟩
  | 77 => ⟨S8x1024x1024, .i32⟩
  | 78 => ⟨S8x1024x1024, .i32⟩
  | 79 => ⟨S_, .i32⟩
  | 80 => ⟨S8x1024x1024, .i32⟩
  | 81 => ⟨S8x1024x1024, .i1⟩
  | 82 => ⟨S_, .i32⟩
  | 83 => ⟨S8x1024x1024, .i32⟩
  | 84 => ⟨S8x1024x1024, .i32⟩
  | 85 => ⟨S8x1024x1024, .i32⟩
  | 86 => ⟨S8x1024x1024x1, .i32⟩
  | 87 => ⟨S3x8x1024x1024, .f32⟩
  | 88 => ⟨S8x3x1024x1024, .f32⟩
  | 89 => ⟨S8x1x1024x1024, .f32⟩
  | 90 => ⟨S8x3x1024x1024, .f32⟩
  | 91 => ⟨S8x3x1024x1024, .f32⟩
  | 92 => ⟨S8x3x1024x1024, .f32⟩
  | 93 => ⟨S_, .i32⟩
  | 94 => ⟨S8x1024x1024, .i32⟩
  | 95 => ⟨S8x1024x1024, .i32⟩
  | 96 => ⟨S_, .i32⟩
  | 97 => ⟨S8x1024x1024, .i32⟩
  | 98 => ⟨S8x1024x1024, .i1⟩
  | 99 => ⟨S_, .i32⟩
  | 100 => ⟨S8x1024x1024, .i32⟩
  | 101 => ⟨S8x1024x1024, .i32⟩
  | 102 => ⟨S8x1024x1024, .i32⟩
  | 103 => ⟨S8x1024x1024x1, .i32⟩
  | 104 => ⟨S3x8x1024x1024, .f32⟩
  | 105 => ⟨S8x3x1024x1024, .f32⟩
  | 106 => ⟨S8x1x1024x1024, .f32⟩
  | 107 => ⟨S8x3x1024x1024, .f32⟩
  | 108 => ⟨S8x3x1024x1024, .f32⟩
  | 109 => ⟨S8x3x1024x1024, .f32⟩
  | _ => ⟨S3x33x33x33, .i32⟩

abbrev hbmTy (i : Nat) : BufTy := match i / 128 with
  | 0 => hbmTy0_0 i
  | 1 => hbmTy0_1 i
  | _ => ⟨S3x33x33x33, .i32⟩

abbrev bufTy : (tb : Table) → Fin (tcTables nBuf tb) → BufTy
  | .hbm, ⟨i, _⟩ => hbmTy i
  | _, _ => ⟨S3x33x33x33, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c_5 : Ref sig .tc := ⟨.hbm, 43, rfl⟩
abbrev main_v33 : Ref sig .tc := ⟨.hbm, 44, rfl⟩
abbrev main_v34 : Ref sig .tc := ⟨.hbm, 45, rfl⟩
abbrev main_c_6 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_7 : Ref sig .tc := ⟨.hbm, 51, rfl⟩
abbrev main_v39 : Ref sig .tc := ⟨.hbm, 52, rfl⟩
abbrev main_v40 : Ref sig .tc := ⟨.hbm, 53, rfl⟩
abbrev main_cst_8 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_9 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_10 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_11 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_12 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_13 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_14 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_15 : Ref sig .tc := ⟨.hbm, 83, rfl⟩
abbrev main_v63 : Ref sig .tc := ⟨.hbm, 84, rfl⟩
abbrev main_v64 : Ref sig .tc := ⟨.hbm, 85, rfl⟩
abbrev main_cst_16 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_17 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_18 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_c_19 : Ref sig .tc := ⟨.hbm, 103, rfl⟩
abbrev main_v79 : Ref sig .tc := ⟨.hbm, 104, rfl⟩
abbrev main_v80 : Ref sig .tc := ⟨.hbm, 105, rfl⟩
abbrev main_c_20 : Ref sig .tc := ⟨.hbm, 106, rfl⟩
abbrev main_v81 : Ref sig .tc := ⟨.hbm, 107, rfl⟩
abbrev main_v82 : Ref sig .tc := ⟨.hbm, 108, rfl⟩
abbrev main_c_21 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_c_22 : Ref sig .tc := ⟨.hbm, 119, rfl⟩
abbrev main_v92 : Ref sig .tc := ⟨.hbm, 120, rfl⟩
abbrev main_v93 : Ref sig .tc := ⟨.hbm, 121, rfl⟩
abbrev main_c_23 : Ref sig .tc := ⟨.hbm, 122, rfl⟩
abbrev main_v94 : Ref sig .tc := ⟨.hbm, 123, rfl⟩
abbrev main_v95 : Ref sig .tc := ⟨.hbm, 124, rfl⟩
abbrev main_c_24 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_c_25 : Ref sig .tc := ⟨.hbm, 136, rfl⟩
abbrev main_v106 : Ref sig .tc := ⟨.hbm, 137, rfl⟩
abbrev main_v107 : Ref sig .tc := ⟨.hbm, 138, rfl⟩
abbrev main_c_26 : Ref sig .tc := ⟨.hbm, 139, rfl⟩
abbrev main_v108 : Ref sig .tc := ⟨.hbm, 140, rfl⟩
abbrev main_v109 : Ref sig .tc := ⟨.hbm, 141, rfl⟩
abbrev main_c_27 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_c_28 : Ref sig .tc := ⟨.hbm, 153, rfl⟩
abbrev main_v120 : Ref sig .tc := ⟨.hbm, 154, rfl⟩
abbrev main_v121 : Ref sig .tc := ⟨.hbm, 155, rfl⟩
abbrev main_c_29 : Ref sig .tc := ⟨.hbm, 156, rfl⟩
abbrev main_v122 : Ref sig .tc := ⟨.hbm, 157, rfl⟩
abbrev main_v123 : Ref sig .tc := ⟨.hbm, 158, rfl⟩
abbrev main_c_30 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_c_31 : Ref sig .tc := ⟨.hbm, 170, rfl⟩
abbrev main_v134 : Ref sig .tc := ⟨.hbm, 171, rfl⟩
abbrev main_v135 : Ref sig .tc := ⟨.hbm, 172, rfl⟩
abbrev main_c_32 : Ref sig .tc := ⟨.hbm, 173, rfl⟩
abbrev main_v136 : Ref sig .tc := ⟨.hbm, 174, rfl⟩
abbrev main_v137 : Ref sig .tc := ⟨.hbm, 175, rfl⟩
abbrev main_c_33 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_c_34 : Ref sig .tc := ⟨.hbm, 187, rfl⟩
abbrev main_v148 : Ref sig .tc := ⟨.hbm, 188, rfl⟩
abbrev main_v149 : Ref sig .tc := ⟨.hbm, 189, rfl⟩
abbrev main_c_35 : Ref sig .tc := ⟨.hbm, 190, rfl⟩
abbrev main_v150 : Ref sig .tc := ⟨.hbm, 191, rfl⟩
abbrev main_v151 : Ref sig .tc := ⟨.hbm, 192, rfl⟩
abbrev main_c_36 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_c_37 : Ref sig .tc := ⟨.hbm, 204, rfl⟩
abbrev main_v162 : Ref sig .tc := ⟨.hbm, 205, rfl⟩
abbrev main_v163 : Ref sig .tc := ⟨.hbm, 206, rfl⟩
abbrev main_c_38 : Ref sig .tc := ⟨.hbm, 207, rfl⟩
abbrev main_v164 : Ref sig .tc := ⟨.hbm, 208, rfl⟩
abbrev main_v165 : Ref sig .tc := ⟨.hbm, 209, rfl⟩
abbrev main_c_39 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_c_40 : Ref sig .tc := ⟨.hbm, 221, rfl⟩
abbrev main_v176 : Ref sig .tc := ⟨.hbm, 222, rfl⟩
abbrev main_v177 : Ref sig .tc := ⟨.hbm, 223, rfl⟩
abbrev main_c_41 : Ref sig .tc := ⟨.hbm, 224, rfl⟩
abbrev main_v178 : Ref sig .tc := ⟨.hbm, 225, rfl⟩
abbrev main_v179 : Ref sig .tc := ⟨.hbm, 226, rfl⟩
abbrev main_c_42 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩

abbrev nD : Nat := 1
abbrev τ : Topo := Topo.v7x

variable {F : FTy → Type} [FloatOps F]

class Facts₀ : Prop where
  slices_S8x3x1024x1024_S8x1x1024x1024_0_0_0_0 : S8x3x1024x1024.Slices ![0, 0, 0, 0] S8x1x1024x1024
  shapeCasts_S8x1x1024x1024_S8x1024x1024 : S8x1x1024x1024.ShapeCasts S8x1024x1024
  slices_S8x3x1024x1024_S8x1x1024x1024_0_1_0_0 : S8x3x1024x1024.Slices ![0, 1, 0, 0] S8x1x1024x1024
  slices_S8x3x1024x1024_S8x1x1024x1024_0_2_0_0 : S8x3x1024x1024.Slices ![0, 2, 0, 0] S8x1x1024x1024
  bcast_S_S8x1024x1024 : S_.BroadcastsInDim S8x1024x1024 (![] : Fin 0 → Fin S8x1024x1024.rank)
  shapeCasts_S3x33x33x33_S3x35937 : S3x33x33x33.ShapeCasts S3x35937
  bcast_S8x1024x1024_S8x1024x1024x1_0_1_2 : S8x1024x1024.BroadcastsInDim S8x1024x1024x1 (![0, 1, 2] : Fin 3 → Fin S8x1024x1024x1.rank)
  transposes_S3x8x1024x1024_S8x3x1024x1024_1_0_2_3 : S3x8x1024x1024.Transposes [1, 0, 2, 3] S8x3x1024x1024
  bcast_S8x1024x1024_S8x1x1024x1024_0_2_3 : S8x1024x1024.BroadcastsInDim S8x1x1024x1024 (![0, 2, 3] : Fin 3 → Fin S8x1x1024x1024.rank)
  bcast_S8x1x1024x1024_S8x3x1024x1024_0_1_2_3 : S8x1x1024x1024.BroadcastsInDim S8x3x1024x1024 (![0, 1, 2, 3] : Fin 4 → Fin S8x3x1024x1024.rank)
  gather_S3x35937_S8x1024x1024x1_S3x8x1024x1024_0_1_n_n_1_3_31_wf : GatherDims.WF S3x35937 S8x1024x1024x1 S3x8x1024x1024 [0] [1] [] [1] [] 3 ![3, 1]

variable [Facts₀]

def gather_S3x35937_S8x1024x1024x1_S3x8x1024x1024_0_1_n_n_1_3_31 : GatherDims S3x35937 S8x1024x1024x1 S3x8x1024x1024 where
  offsetDims := [0]
  collapsedSliceDims := [1]
  operandBatchingDims := []
  startIndicesBatchingDims := []
  startIndexMap := [1]
  indexVectorDim := 3
  sliceSizes := ![3, 1]
  wf := gather_S3x35937_S8x1024x1024x1_S3x8x1024x1024_0_1_n_n_1_3_31_wf

class Facts : Prop extends Facts₀ where

variable [Facts]
-- ==== Proof.Spec.lean ====
/-
  TRILINEAR INTERPOLATION IN A 33 x 33 x 33 TABLE WITH THREE CHANNELS, as both programs compute it.

  A pixel has three coordinates (red, green, blue), each an extended real. A coordinate `v` is divided by the bin
  width `bin`; the quotient's floor, as a 32-bit integer, is the coordinate's CELL, and the quotient less its cell the
  OFFSET inside the cell. Along one axis the table position `j` then carries the weight `hat v j`: `1 - off v` at the
  cell, `off v` at the next position, `0` elsewhere.

  The kernel multiplies the weights of the blue and green axes, contracts the product against the table laid out as a
  1089 x 99 matrix (row `b * 33 + g`, column `r * 3 + c`), and sums the result against the red axis's weights: `kerVal`.
  The reference adds the eight corners of the cell, each the product of three one-axis weights times the table entry at
  the corner's flat position `r + 33 g + 1089 b` (plus the corner's displacement), the position wrapped when negative
  and clamped into the table: `refVal`.

  For coordinates that are reals in [0, 1) every cell is at most 31, both neighbours exist, no position wraps or
  clamps, and the two forms are the same real number.
-/
import Idealize.ShloMosaic.PureOps.Ideal
import Idealize.ShloMosaic.Lib.ValueIdx

noncomputable section

namespace Cert.Tri

open Idealize.ShloMosaic Idealize.ShloMosaic.ValueIdx
open scoped BigOperators

/-- The table: channel, blue, green, red. -/
abbrev STab : Shape := ⟨4, ![3, 33, 33, 33]⟩
/-- The table as the kernel's matrix: row `b * 33 + g`, column `r * 3 + c`. -/
abbrev SMat : Shape := ⟨2, ![1089, 99]⟩
/-- The table as the reference's matrix: channel, flat position `b * 1089 + g * 33 + r`. -/
abbrev SFlat : Shape := ⟨2, ![3, 35937]⟩
/-- The pixels: image, colour, row, column. -/
abbrev SPix : Shape := ⟨4, ![8, 3, 1024, 1024]⟩

/-- The bin width, the f32 nearest 1.000001 / 32. -/
def bin : EReal := Ideal.ofBits .f32 0x3D000008#32
/-- The f32 word of 1.0. -/
def one : EReal := Ideal.ofBits .f32 0x3F800000#32
/-- The f32 word of 0.0. -/
def zero : EReal := Ideal.ofBits .f32 0x00000000#32

/-- A coordinate in units of the bin width. -/
def quot (v : EReal) : EReal := Ideal.div v bin
/-- The cell of a coordinate: the floor of its quotient, as a signed 32-bit integer. -/
def cell (v : EReal) : BitVec 32 := Ideal.fptosi 32 (Ideal.liftRound Int.floor (quot v))
/-- The offset of a coordinate inside its cell. -/
def off (v : EReal) : EReal := quot v - (((cell v).toInt : ℝ) : EReal)

/-- The weight of table position `j` along one axis: `1 - off` at the cell, `off` at the next position. -/
def hat (v : EReal) (j : Fin 33) : EReal :=
  Scalar.select (IntOp.cmpi .eq (BitVec.ofNat 32 j.val) (cell v)) (one - off v) zero
    + Scalar.select (IntOp.cmpi .eq (BitVec.ofNat 32 j.val) (IntOp.addi (cell v) 1#32)) (off v) zero

/-- The table as the kernel's matrix. -/
def mat (lut : STab.Idx → EReal) : SMat.Idx → EReal := fun i =>
  lut (ix4 (⟨(i 1).val % 3, Nat.mod_lt _ (by decide)⟩ : Fin 3)
    (⟨(i 0).val / 33, by have := idx2_lt0 i; omega⟩ : Fin 33)
    (⟨(i 0).val % 33, Nat.mod_lt _ (by decide)⟩ : Fin 33)
    (⟨(i 1).val / 3, by have := idx2_lt1 i; omega⟩ : Fin 33))

/-- The table as the reference's matrix. -/
def flat (lut : STab.Idx → EReal) : SFlat.Idx → EReal := fun i =>
  lut (ix4 (⟨(i 0).val, idx2_lt0 i⟩ : Fin 3)
    (⟨(i 1).val / 1089, by have := idx2_lt1 i; omega⟩ : Fin 33)
    (⟨(i 1).val / 33 % 33, Nat.mod_lt _ (by decide)⟩ : Fin 33)
    (⟨(i 1).val % 33, Nat.mod_lt _ (by decide)⟩ : Fin 33))

/-- THE KERNEL'S FORM of channel `c` at a pixel of coordinates `vr`, `vg`, `vb`, over a 1089 x 99 matrix. -/
def kerVal (tab : SMat.Idx → EReal) (c : Fin 3) (vr vg vb : EReal) : EReal :=
  ∑ r : Fin 33, hat vr r *
    ∑ k : Fin 1089, (hat vb (⟨k.val / 33, by have := k.isLt; omega⟩ : Fin 33)
        * hat vg (⟨k.val % 33, Nat.mod_lt _ (by decide)⟩ : Fin 33))
      * tab (ix2 k (⟨r.val * 3 + c.val, by have := r.isLt; have := c.isLt; omega⟩ : Fin 99))

/-- The flat position of the cell's lowest corner. -/
def base (vr vg vb : EReal) : BitVec 32 :=
  IntOp.addi (IntOp.addi (cell vr) (IntOp.muli (cell vg) 33#32)) (IntOp.muli (IntOp.muli (cell vb) 33#32) 33#32)

/-- The flat position of the corner displaced by `o`: wrapped when negative, then clamped into the table. -/
def pos (vr vg vb : EReal) (o : BitVec 32) : Fin 35937 :=
  ⟨min (Scalar.select (IntOp.cmpi .slt (IntOp.addi (base vr vg vb) o) 0#32)
      (IntOp.addi (IntOp.addi (base vr vg vb) o) 35937#32) (IntOp.addi (base vr vg vb) o)).toInt.toNat 35936, by omega⟩

/-- The table entry of channel `c` at the corner displaced by `o`. -/
def corner (tab : SFlat.Idx → EReal) (c : Fin 3) (vr vg vb : EReal) (o : BitVec 32) : EReal :=
  tab (ix2 c (pos vr vg vb o))

/-- THE REFERENCE'S FORM of channel `c` at a pixel: the eight corners, each weight a product of three one-axis
    weights in the reference's own grouping, added in the reference's own order. -/
def refVal (tab : SFlat.Idx → EReal) (c : Fin 3) (vr vg vb : EReal) : EReal :=
  (one - off vr) * (one - off vg) * (one - off vb) * corner tab c vr vg vb 0#32
    + off vr * (one - off vg) * (one - off vb) * corner tab c vr vg vb 1#32
    + (one - off vr) * off vg * (one - off vb) * corner tab c vr vg vb 33#32
    + off vr * off vg * (one - off vb) * corner tab c vr vg vb 34#32
    + (one - off vr) * (one - off vg) * off vb * corner tab c vr vg vb 1089#32
    + off vr * (one - off vg) * off vb * corner tab c vr vg vb 1090#32
    + (one - off vr) * off vg * off vb * corner tab c vr vg vb 1122#32
    + off vr * off vg * off vb * corner tab c vr vg vb 1123#32

/-- An extended real that is a real number. -/
def IsReal (v : EReal) : Prop := ∃ a : ℝ, v = (a : EReal)
/-- An extended real that is a real number in [0, 1). -/
def InUnit (v : EReal) : Prop := ∃ a : ℝ, v = (a : EReal) ∧ 0 ≤ a ∧ a < 1

/-- The three coordinates of the pixel an output index belongs to. -/
def red (x : SPix.Idx → EReal) (i : SPix.Idx) : EReal := x (ix4 (i 0 : Fin 8) (0 : Fin 3) (i 2 : Fin 1024) (i 3 : Fin 1024))
def green (x : SPix.Idx → EReal) (i : SPix.Idx) : EReal := x (ix4 (i 0 : Fin 8) (1 : Fin 3) (i 2 : Fin 1024) (i 3 : Fin 1024))
def blue (x : SPix.Idx → EReal) (i : SPix.Idx) : EReal := x (ix4 (i 0 : Fin 8) (2 : Fin 3) (i 2 : Fin 1024) (i 3 : Fin 1024))

/-- THE RESULT ARRAY, in the reference's form: at (image, channel, row, column) the interpolated channel at that pixel. -/
def G (lut : STab.Idx → EReal) (x : SPix.Idx → EReal) : SPix.Idx → EReal := fun i =>
  refVal (flat lut) (i 1 : Fin 3) (red x i) (green x i) (blue x i)

/-- The result array in the kernel's form. -/
def GK (lut : STab.Idx → EReal) (x : SPix.Idx → EReal) : SPix.Idx → EReal := fun i =>
  kerVal (mat lut) (i 1 : Fin 3) (red x i) (green x i) (blue x i)

end Cert.Tri

end
-- ==== Proof.Axis.lean ====
/-
  ONE COORDINATE in [0, 1). Its quotient by the bin width is a real below 32, so its cell is a natural number `k` at most
  31, its offset a real `f`, and along the axis the weights are `1 - f` at position `k`, `f` at position `k + 1` and zero
  at the other 31 positions.
-/
import proofs.«129195_j52501680226537_1_alg».proof.Proof.Spec

noncomputable section

namespace Cert.Tri

open Idealize.ShloMosaic Idealize.ShloMosaic.ValueIdx

/-- The f32 words of 1.0 and 0.0 are the reals 1 and 0. -/
theorem one_eq : one = ((1 : ℝ) : EReal) := by
  -- sign 0, exponent field 127, fraction 0: the value is (2^23 + 0) * 2^(127 - 127 - 23) = 1.
  simp [one, Ideal.ofBits, Ideal.ieee]
  rw [← EReal.coe_mul, ← EReal.coe_one]
  congr 1
  norm_num
theorem zero_eq : zero = ((0 : ℝ) : EReal) := by
  -- every field is 0: the value is 0 * 2^(-149) = 0.
  simp [zero, Ideal.ofBits, Ideal.ieee]

/-- The bin width: sign 0, exponent field 122, fraction 8, so (2^23 + 8) * 2^(122 - 127 - 23) = 1048577 / 2^25. -/
theorem bin_eq : bin = ((1048577 / 33554432 : ℝ) : EReal) := by
  simp [bin, Ideal.ofBits, Ideal.ieee]
  rw [← EReal.coe_mul]
  congr 1
  norm_num

/-- The quotient of a real by the bin width is the real times 2^25 / 1048577 (the bin width is not zero). -/
theorem quot_coe (a : ℝ) : quot (a : EReal) = ((a * (33554432 / 1048577) : ℝ) : EReal) := by
  rw [quot, bin_eq, Ideal.div_coe (by norm_num), ← EReal.coe_mul]
  congr 1
  norm_num

/-- A real whose floor is a natural number `n ≤ 31`: the floor, as a real, is not negative, so rounding it toward zero
    gives `n` back, the clamp to [-2^31, 2^31 - 1] leaves `n` alone, and the 32-bit integer is `n`. -/
theorem cell_coe (q : ℝ) (n : ℕ) (hn : ⌊q⌋ = (n : ℤ)) (h31 : n ≤ 31) :
    Ideal.fptosi 32 (Ideal.liftRound Int.floor (q : EReal)) = BitVec.ofNat 32 n := by
  rw [Ideal.liftRound_coe, Ideal.fptosi, Ideal.toIntClamped_coe, hn]
  have h0 : (0 : ℝ) ≤ ((n : ℤ) : ℝ) := by positivity
  rw [if_pos h0, Int.floor_intCast]
  have hmin : min (((2 ^ (32 - 1) : ℕ) : ℤ) - 1) (n : ℤ) = (n : ℤ) := by
    apply min_eq_right; omega
  have hmax : max (-((2 ^ (32 - 1) : ℕ) : ℤ)) (n : ℤ) = (n : ℤ) := by
    apply max_eq_right; omega
  rw [hmin, hmax, BitVec.ofInt_natCast]

/-- A 32-bit integer `n ≤ 31`, read as a signed integer, is `n`: twice `n` is below 2^32. -/
theorem toInt_small (n : ℕ) (h31 : n ≤ 31) : (BitVec.ofNat 32 n).toInt = (n : ℤ) := by
  rw [BitVec.toInt_eq_toNat_of_lt, BitVec.toNat_ofNat, Nat.mod_eq_of_lt (by omega)]
  rw [BitVec.toNat_ofNat, Nat.mod_eq_of_lt (by omega)]; omega

/-- Choosing by the equality of two 32-bit integers that are natural numbers below 2^32 is choosing by the equality of
    the natural numbers: below 2^32 the 32-bit integer determines the number. -/
theorem sel_eq {α : Type} (j k : ℕ) (hj : j < 2 ^ 32) (hk : k < 2 ^ 32) (a b : α) :
    Scalar.select (IntOp.cmpi .eq (BitVec.ofNat 32 j) (BitVec.ofNat 32 k)) a b = if j = k then a else b := by
  show (if BitVec.ofBool (BitVec.ofNat 32 j == BitVec.ofNat 32 k) = 1#1 then a else b) = _
  by_cases h : j = k
  · subst h
    rw [beq_self_eq_true, if_pos (by decide), if_pos rfl]
  · have hne : BitVec.ofNat 32 j ≠ BitVec.ofNat 32 k := by
      intro e
      apply h
      have := congrArg BitVec.toNat e
      rwa [BitVec.toNat_ofNat, BitVec.toNat_ofNat, Nat.mod_eq_of_lt hj, Nat.mod_eq_of_lt hk] at this
    rw [beq_eq_false_iff_ne.mpr hne, if_neg (by decide), if_neg h]

/-- A coordinate in [0, 1): its cell is `k ≤ 31`, its offset a real, and each of its weights the real that the cell and the
    offset give. -/
theorem axis (v : EReal) (h : InUnit v) : ∃ (k : ℕ) (f : ℝ), k ≤ 31 ∧ cell v = BitVec.ofNat 32 k ∧ off v = (f : EReal)
    ∧ ∀ j : Fin 33, hat v j = ((if j.val = k then 1 - f else if j.val = k + 1 then f else 0 : ℝ) : EReal) := by
  obtain ⟨a, rfl, ha0, ha1⟩ := h
  -- the quotient q = a * 2^25 / 1048577 lies in [0, 32): a < 1 and 2^25 / 1048577 < 32.
  obtain ⟨q, hq⟩ : ∃ q : ℝ, q = a * (33554432 / 1048577) := ⟨_, rfl⟩
  have hquot : quot (a : EReal) = (q : EReal) := by rw [hq]; exact quot_coe a
  have hq0 : 0 ≤ q := by rw [hq]; positivity
  have hq32 : q < 32 := by
    have : a * (33554432 / 1048577) < 1 * (33554432 / 1048577) := by
      apply mul_lt_mul_of_pos_right ha1; norm_num
    rw [hq]; linarith [show (1:ℝ) * (33554432 / 1048577) < 32 by norm_num]
  -- so its floor is a natural number k ≤ 31.
  have hf0 : 0 ≤ ⌊q⌋ := Int.floor_nonneg.mpr hq0
  have hf31 : ⌊q⌋ ≤ 31 := by
    have : ⌊q⌋ < 32 := Int.floor_lt.mpr (by exact_mod_cast hq32)
    omega
  obtain ⟨k, hk⟩ := Int.eq_ofNat_of_zero_le hf0
  have hk31 : k ≤ 31 := by omega
  have hcell : cell (a : EReal) = BitVec.ofNat 32 k := by
    rw [cell, hquot]; exact cell_coe q k hk hk31
  -- the offset is the real q - k.
  have hoff : off (a : EReal) = ((q - k : ℝ) : EReal) := by
    rw [off, hcell, hquot, toInt_small k hk31, Int.cast_natCast, EReal.coe_sub]
  refine ⟨k, q - k, hk31, hcell, hoff, ?_⟩
  intro j
  have hj : j.val < 2 ^ 32 := by have := j.isLt; omega
  rw [hat, hcell, hoff, one_eq, zero_eq]
  -- the cell plus one is the 32-bit integer k + 1; both comparisons are comparisons of natural numbers.
  have hadd : IntOp.addi (BitVec.ofNat 32 k) 1#32 = BitVec.ofNat 32 (k + 1) := (BitVec.ofNat_add k 1).symm
  rw [hadd, sel_eq _ _ hj (by omega), sel_eq _ _ hj (by omega)]
  -- j = k: (1 - f) + 0; j = k + 1: 0 + f; otherwise 0 + 0.
  by_cases h1 : j.val = k
  · have h2 : ¬ j.val = k + 1 := by omega
    rw [if_pos h1, if_neg h2, if_pos h1, EReal.coe_sub]; simp
  · by_cases h2 : j.val = k + 1
    · rw [if_neg h1, if_pos h2, if_neg h1, if_pos h2]; simp
    · rw [if_neg h1, if_neg h2, if_neg h1, if_neg h2]; simp

end Cert.Tri

end
-- ==== Proof.Corner.lean ====
/-
  WHERE THE TWO LAYOUTS OF THE TABLE READ IT. The kernel's matrix at row `b * 33 + g`, column `r * 3 + c` and the
  reference's at channel `c`, the flat position of the corner `(r, g, b)` of a cell whose three cell numbers are at most 31,
  are the table entry `(c, b, g, r)`: the flat position `r + 33 g + 1089 b` is neither negative nor past the table's end, so
  it is neither wrapped nor clamped, and its three digits in base 33 are `b`, `g`, `r`.
-/
import proofs.«129195_j52501680226537_1_alg».proof.Proof.Spec

noncomputable section

namespace Cert.Tri

open Idealize.ShloMosaic Idealize.ShloMosaic.ValueIdx

/-- The kernel's matrix read at row `b * 33 + g`, column `r * 3 + c`. -/
theorem mat_apply (lut : STab.Idx → EReal) (c : Fin 3) (b g r : Fin 33) (hk : b.val * 33 + g.val < 1089)
    (hj : r.val * 3 + c.val < 99) :
    mat lut (ix2 (⟨b.val * 33 + g.val, hk⟩ : Fin 1089) (⟨r.val * 3 + c.val, hj⟩ : Fin 99)) = lut (ix4 c b g r) := by
  -- Both sides read the table; the four coordinates agree because `c < 3` and `g < 33` are the remainders and `r`, `b`
  -- the quotients of the column `r * 3 + c` by 3 and of the row `b * 33 + g` by 33.
  have hc := c.isLt
  have hg := g.isLt
  unfold mat
  refine congrArg lut ?_
  funext a
  match a with
  | ⟨0, _⟩ => exact Fin.ext (by show (r.val * 3 + c.val) % 3 = c.val; omega)
  | ⟨1, _⟩ => exact Fin.ext (by show (b.val * 33 + g.val) / 33 = b.val; omega)
  | ⟨2, _⟩ => exact Fin.ext (by show (b.val * 33 + g.val) % 33 = g.val; omega)
  | ⟨3, _⟩ => exact Fin.ext (by show (r.val * 3 + c.val) / 3 = r.val; omega)

/-- A natural number below `2 ^ 31`, as a 32-bit word, reads as itself when the word is taken signed. -/
private theorem toInt_ofNat_small (N : ℕ) (hN : N < 2147483648) : (BitVec.ofNat 32 N).toInt = (N : Int) := by
  rw [BitVec.toInt_eq_toNat_cond, BitVec.toNat_ofNat]
  have h : N % 2 ^ 32 = N := Nat.mod_eq_of_lt (by omega)
  rw [h]
  split <;> omega

/-- Such a word is not negative: the signed comparison with zero gives the bit 0. -/
private theorem slt_zero_ofNat (N : ℕ) (hN : N < 2147483648) : IntOp.cmpi .slt (BitVec.ofNat 32 N) 0#32 = 0#1 := by
  have h : (BitVec.ofNat 32 N).slt 0#32 = false := by
    rw [BitVec.slt_eq_decide, toInt_ofNat_small N hN]
    have h0 : (0#32).toInt = 0 := by decide
    rw [h0]
    exact decide_eq_false (by omega)
  unfold IntOp.cmpi
  simp only [h]
  decide

/-- The flat position of a corner, once the lowest corner's position is a known natural number `B` and the displacement
    a natural number `M` with `B + M` inside the table: the sum is not negative, so it is not wrapped, and it is at most
    35936, so it is not clamped. -/
private theorem pos_eq (vr vg vb : EReal) (B M : ℕ) (hb : base vr vg vb = BitVec.ofNat 32 B) (h : B + M ≤ 35936) :
    pos vr vg vb (BitVec.ofNat 32 M) = (⟨B + M, by omega⟩ : Fin 35937) := by
  apply Fin.ext
  unfold pos
  simp only []
  rw [hb]
  simp only [IntOp.addi]
  rw [← BitVec.ofNat_add, slt_zero_ofNat (B + M) (by omega)]
  unfold Scalar.select
  rw [if_neg (by decide), toInt_ofNat_small (B + M) (by omega)]
  omega

/-- The reference's corner displaced by `dr + 33 dg + 1089 db` from the cell `(kr, kg, kb)`. -/
theorem corner_apply (lut : STab.Idx → EReal) (c : Fin 3) (vr vg vb : EReal) (kr kg kb : ℕ)
    (hkr : kr ≤ 31) (hkg : kg ≤ 31) (hkb : kb ≤ 31)
    (er : cell vr = BitVec.ofNat 32 kr) (eg : cell vg = BitVec.ofNat 32 kg) (eb : cell vb = BitVec.ofNat 32 kb)
    (dr dg db : ℕ) (hdr : dr ≤ 1) (hdg : dg ≤ 1) (hdb : db ≤ 1) :
    corner (flat lut) c vr vg vb (BitVec.ofNat 32 (dr + 33 * dg + 1089 * db))
      = lut (ix4 c (⟨kb + db, by omega⟩ : Fin 33) (⟨kg + dg, by omega⟩ : Fin 33) (⟨kr + dr, by omega⟩ : Fin 33)) := by
  -- The lowest corner's position is the natural number `kr + kg * 33 + kb * 33 * 33`.
  have hb : base vr vg vb = BitVec.ofNat 32 (kr + kg * 33 + kb * 33 * 33) := by
    unfold base
    rw [er, eg, eb]
    simp only [IntOp.addi, IntOp.muli, BitVec.ofNat_add, BitVec.ofNat_mul]
  -- The corner's position is `(kr + dr) + 33 (kg + dg) + 1089 (kb + db)`, at most `32 + 33 * 32 + 1089 * 32 = 35936`.
  have hp := pos_eq vr vg vb (kr + kg * 33 + kb * 33 * 33) (dr + 33 * dg + 1089 * db) hb (by omega)
  unfold corner
  rw [hp]
  unfold flat
  refine congrArg lut ?_
  -- Its three digits in base 33 are `kb + db`, `kg + dg`, `kr + dr`, each at most 32.
  funext a
  match a with
  | ⟨0, _⟩ => exact Fin.ext rfl
  | ⟨1, _⟩ =>
    exact Fin.ext (by
      show (kr + kg * 33 + kb * 33 * 33 + (dr + 33 * dg + 1089 * db)) / 1089 = kb + db
      omega)
  | ⟨2, _⟩ =>
    exact Fin.ext (by
      show (kr + kg * 33 + kb * 33 * 33 + (dr + 33 * dg + 1089 * db)) / 33 % 33 = kg + dg
      omega)
  | ⟨3, _⟩ =>
    exact Fin.ext (by
      show (kr + kg * 33 + kb * 33 * 33 + (dr + 33 * dg + 1089 * db)) % 33 = kr + dr
      omega)

end Cert.Tri

end
-- ==== Proof.Scalar.lean ====
/-
  For coordinates that are reals in [0, 1) and a table of reals, the kernel's form of the interpolation and the
  reference's are the same number.

  Along one axis the 33 weights vanish outside the cell `k` and its neighbour `k + 1`, so a sum over the axis
  is its two terms at `k` and `k + 1`. The kernel's sum over the 1089 rows `b * 33 + g` is a double sum over
  `(b, g)`; collapsing the three axes leaves the eight corners of the cell, the same eight table entries the
  reference reads, and the two weighted sums are one real polynomial in the three offsets and the eight entries.
-/
import proofs.«129195_j52501680226537_1_alg».proof.Proof.Spec
import proofs.«129195_j52501680226537_1_alg».proof.Proof.Axis
import proofs.«129195_j52501680226537_1_alg».proof.Proof.Corner
import Mathlib.Data.EReal.Basic
import Mathlib.Data.EReal.Operations
import Mathlib.Logic.Equiv.Fin.Basic
import Mathlib.Algebra.BigOperators.Fin
import Mathlib.Algebra.BigOperators.Group.Finset.Basic
import Mathlib.Tactic.Ring

noncomputable section

namespace Cert.Tri

open Idealize.ShloMosaic Idealize.ShloMosaic.ValueIdx
open scoped BigOperators

/-- A sum over the 33 positions of an axis whose terms vanish away from `k` and `k + 1` is the sum of the two
    terms at `k` and `k + 1`. -/
private theorem sum_pair {A : Type*} [AddCommMonoid A] (t : Fin 33 → A) (k : ℕ) (hk : k ≤ 31)
    (h0 : ∀ j : Fin 33, j.val ≠ k → j.val ≠ k + 1 → t j = 0) :
    ∑ j, t j = t ⟨k, by omega⟩ + t ⟨k + 1, by omega⟩ := by
  refine Fintype.sum_eq_add (⟨k, by omega⟩ : Fin 33) (⟨k + 1, by omega⟩ : Fin 33) ?_ ?_
  · intro h
    have := congrArg Fin.val h
    simp at this
  · rintro j ⟨h1, h2⟩
    exact h0 j (fun h => h1 (Fin.ext h)) (fun h => h2 (Fin.ext h))

/-- A sum over the 1089 rows `b * 33 + g` is the double sum over `b` and `g`. -/
private theorem sum_rows {A : Type*} [AddCommMonoid A] (F : Fin 1089 → A) :
    ∑ k : Fin 1089, F k
      = ∑ b : Fin 33, ∑ g : Fin 33, F ⟨b.val * 33 + g.val, by have := b.isLt; have := g.isLt; omega⟩ := by
  have h := (Equiv.sum_comp (finProdFinEquiv (m := 33) (n := 33)) F).symm
  rw [Fintype.sum_prod_type] at h
  refine h.trans ?_
  refine Finset.sum_congr rfl (fun b _ => Finset.sum_congr rfl (fun g _ => congrArg F (Fin.ext ?_)))
  simp [finProdFinEquiv]
  omega

/-- The real weight of table position `j` along an axis of cell `k` and offset `f`. -/
private def wt (k : ℕ) (f : ℝ) (j : Fin 33) : ℝ := if j.val = k then 1 - f else if j.val = k + 1 then f else 0

private theorem wt_cell (k : ℕ) (f : ℝ) (h : k < 33) : wt k f ⟨k, h⟩ = 1 - f := by simp [wt]
private theorem wt_next (k : ℕ) (f : ℝ) (h : k + 1 < 33) : wt k f ⟨k + 1, h⟩ = f := by simp [wt]
private theorem wt_else (k : ℕ) (f : ℝ) (j : Fin 33) (h1 : j.val ≠ k) (h2 : j.val ≠ k + 1) : wt k f j = 0 := by
  simp [wt, h1, h2]

/-- Two axes: the double sum of the products of the weights against a 33 x 33 array is the four terms at the cell
    and its neighbours. -/
private theorem collapse2 (M : Fin 33 → Fin 33 → EReal) (kg kb : ℕ) (hkg : kg ≤ 31) (hkb : kb ≤ 31) (fg fb : ℝ) :
    ∑ b : Fin 33, ∑ g : Fin 33, ((wt kb fb b : EReal) * (wt kg fg g : EReal)) * M b g
      = ((((1 - fb : ℝ) : EReal) * ((1 - fg : ℝ) : EReal)) * M ⟨kb, by omega⟩ ⟨kg, by omega⟩
          + (((1 - fb : ℝ) : EReal) * (fg : EReal)) * M ⟨kb, by omega⟩ ⟨kg + 1, by omega⟩)
        + (((fb : EReal) * ((1 - fg : ℝ) : EReal)) * M ⟨kb + 1, by omega⟩ ⟨kg, by omega⟩
          + ((fb : EReal) * (fg : EReal)) * M ⟨kb + 1, by omega⟩ ⟨kg + 1, by omega⟩) := by
  rw [sum_pair _ kb hkb]
  · rw [sum_pair _ kg hkg, sum_pair _ kg hkg]
    · simp only [wt_cell, wt_next]
    · intro j h1 h2
      rw [wt_else _ _ j h1 h2]; simp
    · intro j h1 h2
      rw [wt_else _ _ j h1 h2]; simp
  · intro j h1 h2
    rw [wt_else _ _ j h1 h2]; simp

/-- Three axes: the kernel's nested sum is the two terms of the red axis, each the four terms of the blue and green
    axes. -/
private theorem collapse3 (T : Fin 33 → Fin 33 → Fin 33 → EReal) (kr kg kb : ℕ) (hkr : kr ≤ 31) (hkg : kg ≤ 31)
    (hkb : kb ≤ 31) (fr fg fb : ℝ) :
    ∑ r : Fin 33, (wt kr fr r : EReal)
        * ∑ b : Fin 33, ∑ g : Fin 33, ((wt kb fb b : EReal) * (wt kg fg g : EReal)) * T b g r
      = ((1 - fr : ℝ) : EReal)
          * (((((1 - fb : ℝ) : EReal) * ((1 - fg : ℝ) : EReal)) * T ⟨kb, by omega⟩ ⟨kg, by omega⟩ ⟨kr, by omega⟩
              + (((1 - fb : ℝ) : EReal) * (fg : EReal)) * T ⟨kb, by omega⟩ ⟨kg + 1, by omega⟩ ⟨kr, by omega⟩)
            + (((fb : EReal) * ((1 - fg : ℝ) : EReal)) * T ⟨kb + 1, by omega⟩ ⟨kg, by omega⟩ ⟨kr, by omega⟩
              + ((fb : EReal) * (fg : EReal)) * T ⟨kb + 1, by omega⟩ ⟨kg + 1, by omega⟩ ⟨kr, by omega⟩))
        + (fr : EReal)
          * (((((1 - fb : ℝ) : EReal) * ((1 - fg : ℝ) : EReal)) * T ⟨kb, by omega⟩ ⟨kg, by omega⟩ ⟨kr + 1, by omega⟩
              + (((1 - fb : ℝ) : EReal) * (fg : EReal)) * T ⟨kb, by omega⟩ ⟨kg + 1, by omega⟩ ⟨kr + 1, by omega⟩)
            + (((fb : EReal) * ((1 - fg : ℝ) : EReal)) * T ⟨kb + 1, by omega⟩ ⟨kg, by omega⟩ ⟨kr + 1, by omega⟩
              + ((fb : EReal) * (fg : EReal)) * T ⟨kb + 1, by omega⟩ ⟨kg + 1, by omega⟩ ⟨kr + 1, by omega⟩)) := by
  rw [sum_pair _ kr hkr]
  · rw [wt_cell, wt_next, collapse2 (fun b g => T b g ⟨kr, by omega⟩) kg kb hkg hkb,
      collapse2 (fun b g => T b g ⟨kr + 1, by omega⟩) kg kb hkg hkb]
  · intro j h1 h2
    rw [wt_else _ _ j h1 h2]; simp

/-- One pixel, one channel: the kernel's contraction of one-axis weights against the table is the reference's sum over
    the eight corners of the cell. -/
theorem kerVal_eq_refVal (lut : STab.Idx → EReal) (hl : ∀ i, IsReal (lut i)) (c : Fin 3) (vr vg vb : EReal)
    (hr : InUnit vr) (hg : InUnit vg) (hb : InUnit vb) :
    kerVal (mat lut) c vr vg vb = refVal (flat lut) c vr vg vb := by
  obtain ⟨kr, fr, hkr, er, eor, hhr⟩ := axis vr hr
  obtain ⟨kg, fg, hkg, eg, eog, hhg⟩ := axis vg hg
  obtain ⟨kb, fb, hkb, eb, eob, hhb⟩ := axis vb hb
  choose L hL using hl
  have hhr' : ∀ j, hat vr j = (wt kr fr j : EReal) := hhr
  have hhg' : ∀ j, hat vg j = (wt kg fg j : EReal) := hhg
  have hhb' : ∀ j, hat vb j = (wt kb fb j : EReal) := hhb
  -- the kernel's form as a nested sum over the three axes of real weights against the table
  have hK : kerVal (mat lut) c vr vg vb
      = ∑ r : Fin 33, (wt kr fr r : EReal)
          * ∑ b : Fin 33, ∑ g : Fin 33, ((wt kb fb b : EReal) * (wt kg fg g : EReal)) * lut (ix4 c b g r) := by
    unfold kerVal
    refine Finset.sum_congr rfl (fun r _ => ?_)
    rw [hhr' r, sum_rows]
    refine congrArg _ (Finset.sum_congr rfl (fun b _ => Finset.sum_congr rfl (fun g _ => ?_)))
    have h1 : (b.val * 33 + g.val) / 33 = b.val := by have := g.isLt; omega
    have h2 : (b.val * 33 + g.val) % 33 = g.val := by have := g.isLt; omega
    simp only [h1, h2, Fin.eta, mat_apply, hhb', hhg']
  -- the eight corners the reference reads
  have c000 : corner (flat lut) c vr vg vb 0#32
      = lut (ix4 c ⟨kb, by omega⟩ ⟨kg, by omega⟩ ⟨kr, by omega⟩) :=
    corner_apply lut c vr vg vb kr kg kb hkr hkg hkb er eg eb 0 0 0 (by omega) (by omega) (by omega)
  have c100 : corner (flat lut) c vr vg vb 1#32
      = lut (ix4 c ⟨kb, by omega⟩ ⟨kg, by omega⟩ ⟨kr + 1, by omega⟩) :=
    corner_apply lut c vr vg vb kr kg kb hkr hkg hkb er eg eb 1 0 0 (by omega) (by omega) (by omega)
  have c010 : corner (flat lut) c vr vg vb 33#32
      = lut (ix4 c ⟨kb, by omega⟩ ⟨kg + 1, by omega⟩ ⟨kr, by omega⟩) :=
    corner_apply lut c vr vg vb kr kg kb hkr hkg hkb er eg eb 0 1 0 (by omega) (by omega) (by omega)
  have c110 : corner (flat lut) c vr vg vb 34#32
      = lut (ix4 c ⟨kb, by omega⟩ ⟨kg + 1, by omega⟩ ⟨kr + 1, by omega⟩) :=
    corner_apply lut c vr vg vb kr kg kb hkr hkg hkb er eg eb 1 1 0 (by omega) (by omega) (by omega)
  have c001 : corner (flat lut) c vr vg vb 1089#32
      = lut (ix4 c ⟨kb + 1, by omega⟩ ⟨kg, by omega⟩ ⟨kr, by omega⟩) :=
    corner_apply lut c vr vg vb kr kg kb hkr hkg hkb er eg eb 0 0 1 (by omega) (by omega) (by omega)
  have c101 : corner (flat lut) c vr vg vb 1090#32
      = lut (ix4 c ⟨kb + 1, by omega⟩ ⟨kg, by omega⟩ ⟨kr + 1, by omega⟩) :=
    corner_apply lut c vr vg vb kr kg kb hkr hkg hkb er eg eb 1 0 1 (by omega) (by omega) (by omega)
  have c011 : corner (flat lut) c vr vg vb 1122#32
      = lut (ix4 c ⟨kb + 1, by omega⟩ ⟨kg + 1, by omega⟩ ⟨kr, by omega⟩) :=
    corner_apply lut c vr vg vb kr kg kb hkr hkg hkb er eg eb 0 1 1 (by omega) (by omega) (by omega)
  have c111 : corner (flat lut) c vr vg vb 1123#32
      = lut (ix4 c ⟨kb + 1, by omega⟩ ⟨kg + 1, by omega⟩ ⟨kr + 1, by omega⟩) :=
    corner_apply lut c vr vg vb kr kg kb hkr hkg hkb er eg eb 1 1 1 (by omega) (by omega) (by omega)
  rw [hK, collapse3 (fun b g r => lut (ix4 c b g r)) kr kg kb hkr hkg hkb]
  unfold refVal
  rw [c000, c100, c010, c110, c001, c101, c011, c111, eor, eog, eob, one_eq]
  -- both sides are one real polynomial in the offsets and the eight table entries
  simp only [hL, ← EReal.coe_sub, ← EReal.coe_mul, ← EReal.coe_add]
  rw [EReal.coe_eq_coe_iff]
  ring

/-- The whole array. -/
theorem GK_eq_G (lut : STab.Idx → EReal) (x : SPix.Idx → EReal) (hl : ∀ i, IsReal (lut i)) (hx : ∀ i, InUnit (x i)) :
    GK lut x = G lut x :=
  funext fun i => kerVal_eq_refVal lut hl _ _ _ _ (hx _) (hx _) (hx _)

end Cert.Tri

end
-- ==== Proof.PreFacts.lean ====
/-
  What the precondition says of the inputs: every table entry is a real number, and every pixel coordinate is a real
  number in [0, 1).
-/
import proofs.«129195_j52501680226537_1_alg».proof.Pre_finite_inputs
import proofs.«129195_j52501680226537_1_alg».proof.Proof.Spec
import Idealize.ShloMosaic.Lib.ReduceAll
import Idealize.ShloMosaic.PureOps.Ideal.Laws

noncomputable section

namespace Cert.PreFacts

open Idealize.ShloMosaic Idealize.ShloMosaic.ValueIdx

/-- The rank-0 shape has one index. -/
theorem scalar_idx_subsingleton : Subsingleton Cert.Pre_finite_inputs.S_.Idx := ⟨fun _ _ => funext fun d => d.elim0⟩

/-- The f32 word 0x7F800000 is +∞. -/
theorem top_f32 : Ideal.ofBits .f32 0x7F800000#32 = (⊤ : EReal) := by simp [Ideal.ofBits, Ideal.ieee]

/-- The f32 word 0x3F800000 is the real 1. -/
theorem one_f32 : Ideal.ofBits .f32 0x3F800000#32 = ((1 : ℝ) : EReal) := by
  simp [Ideal.ofBits, Ideal.ieee]
  rw [← EReal.coe_mul, ← EReal.coe_one]
  congr 1
  norm_num

/-- A decided proposition whose bit is 1 holds. -/
theorem of_bit {p : Prop} [Decidable p] (h : BitVec.ofBool (decide p) = 1#1) : p := by
  by_cases hp : p
  · exact hp
  · simp [hp] at h

/-- An extended real whose absolute value max v (-v) is below +∞ is a real: at -∞ the maximum is -(-∞) = +∞, at +∞ it is +∞. -/
theorem real_of_abs_lt_top (v : EReal) (h : max v (-v) < ⊤) : ∃ a : ℝ, v = (a : EReal) := by
  induction v using EReal.rec with
  | bot => simp at h
  | coe a => exact ⟨a, rfl⟩
  | top => simp at h

/-- The comparison "below" that came out 1 is the order's strict inequality. -/
theorem lt_of_cmpf (a b : Ideal .f32) (e : FloatOps.cmpf .olt a b = 1#1) : (a : EReal) < b := by
  rw [Ideal.cmpf_def] at e
  exact of_bit e

/-- The comparison "at least" that came out 1 is the order's inequality. -/
theorem ge_of_cmpf (a b : Ideal .f32) (e : FloatOps.cmpf .oge a b = 1#1) : (b : EReal) ≤ a := by
  rw [Ideal.cmpf_def] at e
  exact of_bit e

variable [Cert.Pre_finite_inputs.Facts]

/-- The precondition, all ones, read entry by entry. -/
theorem of_pre (a0 : IVec Cert.Tri.STab 32) (lut : FVec Ideal Cert.Tri.STab .f32) (x : FVec Ideal Cert.Tri.SPix .f32)
    (h : Cert.Pre_finite_inputs.fn (F := Ideal) a0 lut x = fun _ => 1#1) :
    (∀ i, Cert.Tri.IsReal (lut i)) ∧ (∀ i, Cert.Tri.InUnit (x i)) := by
  haveI := scalar_idx_subsingleton
  have h0 := congrFun h ValueIdx.ix0
  dsimp only [Cert.Pre_finite_inputs.fn, Cert.Pre_finite_inputs.fn_part1, andi] at h0
  obtain ⟨h123, h4⟩ := IntOp.andi_eq_one.1 h0
  obtain ⟨h12, h3⟩ := IntOp.andi_eq_one.1 h123
  obtain ⟨h1, h2⟩ := IntOp.andi_eq_one.1 h12
  refine ⟨fun i => ?_, fun i => ?_⟩
  · -- the table entry: |lut i| < +∞
    have e := Host.reduce_andi_all _ _ _ _ _ h1 i
    rw [cmpf_apply] at e
    have e' : max (lut i) (-(lut i)) < Ideal.ofBits .f32 0x7F800000#32 := lt_of_cmpf _ _ e
    rw [top_f32] at e'
    exact real_of_abs_lt_top _ e'
  · -- the pixel coordinate: |x i| < +∞, 0 ≤ x i, x i < 1
    have e2 := Host.reduce_andi_all _ _ _ _ _ h2 i
    have e3 := Host.reduce_andi_all _ _ _ _ _ h3 i
    have e4 := Host.reduce_andi_all _ _ _ _ _ h4 i
    rw [cmpf_apply] at e2 e3 e4
    have f2 : max (x i) (-(x i)) < Ideal.ofBits .f32 0x7F800000#32 := lt_of_cmpf _ _ e2
    have f3 : Ideal.ofBits .f32 0x00000000#32 ≤ x i := ge_of_cmpf _ _ e3
    have f4 : x i < Ideal.ofBits .f32 0x3F800000#32 := lt_of_cmpf _ _ e4
    rw [top_f32] at f2
    rw [Ideal.ofBits_zero_f32] at f3
    rw [one_f32] at f4
    obtain ⟨a, ha⟩ := real_of_abs_lt_top _ f2
    rw [ha] at f3 f4
    refine ⟨a, ha, ?_, ?_⟩
    · exact_mod_cast f3
    · exact_mod_cast f4

end Cert.PreFacts

end
-- ==== Proof.KerRows.lean ====
/-
  THE KERNEL'S THREE ROWS OF WEIGHTS. From one colour plane of the input block (16 x 128 pixels, read as 2048 pixels in
  row-major order) the kernel body computes, for each pixel `p` and each table position `j` of the axis, the weight of
  `j`: the coordinate's quotient by the bin width, its floor as the cell, the rest as the offset, then `1 - offset` where
  an iota equals the cell plus `offset` where it equals the cell plus one. That is `hat` of the pixel's coordinate at `j`.
-/
import proofs.«129195_j52501680226537_1_alg».proof.Proof.Gen.KernelIdeal.Skeleton
import proofs.«129195_j52501680226537_1_alg».proof.Proof.Spec
import Idealize.ShloMosaic.Lib.Pipeline.Value
import Idealize.ShloMosaic.Lib.ValueLayout

noncomputable section

namespace Cert.KernelIdeal.Pay

open Cert.KernelIdeal Cert.KernelIdeal.Gen Idealize.ShloMosaic Idealize.ShloMosaic.ValueIdx

/-! ## Reading the layout operations at an index -/

section Index
variable {α : Type}

/-- Pixel `p` of a colour plane: row `p / 128`, column `p % 128`. -/
abbrev pix (v : S1x1x16x128.Idx → α) (p : Fin 2048) : α :=
  v (ix4 (0 : Fin 1) (0 : Fin 1) (⟨p.val / 128, by have := p.isLt; omega⟩ : Fin 16)
    (⟨p.val % 128, Nat.mod_lt _ (by decide)⟩ : Fin 128))

/-- The plane viewed as 16 x 128 and then as 2048 numbers reads, at `p`, the plane at row `p / 128` and column
    `p % 128`: the row-major positions agree, `(p / 128) * 128 + p % 128 = p`. -/
theorem plane_apply (x : S1x1x16x128.Idx → α) (h1 : S1x1x16x128.ShapeCasts S16x128) (h2 : S16x128.ShapeCasts S2048)
    (p : Fin 2048) : shapeCast S2048 (shapeCast S16x128 x h1) h2 (ix1 p) = pix x p := by
  refine (shapeCast_apply _ h2 (ix1 p) (ix2 (⟨p.val / 128, by have := p.isLt; omega⟩ : Fin 16)
    (⟨p.val % 128, Nat.mod_lt _ (by decide)⟩ : Fin 128)) ?_).trans ?_
  · rw [Shape.rowMajor_val_two, Shape.rowMajor_val_one]
    show p.val / 128 * 128 + p.val % 128 = p.val
    omega
  · refine shapeCast_apply x h1 _ _ ?_
    rw [Shape.rowMajor_val_four, Shape.rowMajor_val_two]
    show ((0 * 1 + 0) * 16 + p.val / 128) * 128 + p.val % 128 = p.val / 128 * 128 + p.val % 128
    omega

/-- 2048 numbers viewed as a column read, at `(p, 0)`, the number at `p`. -/
theorem col_apply (x : S2048.Idx → α) (h : S2048.ShapeCasts S2048x1) (p : Fin 2048) (u : Fin 1) :
    shapeCast S2048x1 x h (ix2 p u) = x (ix1 p) := by
  refine shapeCast_apply x h _ _ ?_
  rw [Shape.rowMajor_val_one, Shape.rowMajor_val_two]
  show p.val = p.val * 1 + u.val
  omega

/-- A column broadcast along the rows reads, at `(p, j)`, the column at `p`. -/
theorem bcol_apply (x : S2048x1.Idx → α) (h : S2048x1.Broadcasts S2048x33) (p : Fin 2048) (j : Fin 33) :
    broadcastTo S2048x33 x h (ix2 p j) = x (ix2 p (0 : Fin 1)) :=
  broadcastTo_apply x h _ _ fun a => match a with
    | ⟨0, _⟩ => rfl
    | ⟨1, _⟩ => rfl

/-- One row broadcast over the pixels reads, at `(p, j)`, the row at `j`. -/
theorem brow_apply (x : S1x33.Idx → α) (h : S1x33.Broadcasts S2048x33) (p : Fin 2048) (j : Fin 33) :
    broadcastTo S2048x33 x h (ix2 p j) = x (ix2 (0 : Fin 1) j) :=
  broadcastTo_1b_ab_apply x h p j

end Index

/-- The iota along the table axis reads its column. -/
theorem iota_row_apply (h : S1x33.Iotas .tc 32 [1]) (u : Fin 1) (j : Fin 33) :
    iota .tc S1x33 32 [1] h (ix2 u j) = BitVec.ofNat 32 j.val :=
  iota_single_apply .tc S1x33 32 1 h (ix2 u j)

/-- An integer comparison and an integer sum read at an index. -/
theorem cmpi_at {s : Shape} {w : Nat} (q : CmpIPredicate) (a b : IVec s w) (i : s.Idx) :
    cmpi q a b i = IntOp.cmpi q (a i) (b i) := rfl

theorem addi_at {s : Shape} {w : Nat} (a b : IVec s w) (i : s.Idx) : addi a b i = IntOp.addi (a i) (b i) := rfl

/-! ## The quotient, the cell and the offset of one pixel -/

/-- The plane divided by the bin width reads, at pixel `p`, the quotient of the pixel's coordinate. -/
theorem quot5_apply (v : Vec Ideal S1x1x16x128 .f32) (p : Fin 2048) :
    k0_pay5 (F := Ideal) v (ix1 p) = Cert.Tri.quot (pix v p) := by
  unfold k0_pay5
  refine (divf_apply _ _ _).trans ?_
  rw [plane_apply]
  rfl

theorem quot6_apply (v : Vec Ideal S1x1x16x128 .f32) (p : Fin 2048) :
    k0_pay6 (F := Ideal) v (ix1 p) = Cert.Tri.quot (pix v p) := by
  unfold k0_pay6
  refine (divf_apply _ _ _).trans ?_
  rw [plane_apply]
  rfl

theorem quot7_apply (v : Vec Ideal S1x1x16x128 .f32) (p : Fin 2048) :
    k0_pay7 (F := Ideal) v (ix1 p) = Cert.Tri.quot (pix v p) := by
  unfold k0_pay7
  refine (divf_apply _ _ _).trans ?_
  rw [plane_apply]
  rfl

/-- The floor of the quotient, as a 32-bit integer, is the cell of the pixel's coordinate. -/
theorem cell8_apply (v : Vec Ideal S1x1x16x128 .f32) (p : Fin 2048) :
    k0_pay8 (F := Ideal) v (ix1 p) = Cert.Tri.cell (pix v p) := by
  unfold k0_pay8
  show Ideal.fptosi 32 (Ideal.liftRound Int.floor (k0_pay5 (F := Ideal) v (ix1 p))) = _
  rw [quot5_apply]
  rfl

theorem cell9_apply (v : Vec Ideal S1x1x16x128 .f32) (p : Fin 2048) :
    k0_pay9 (F := Ideal) v (ix1 p) = Cert.Tri.cell (pix v p) := by
  unfold k0_pay9
  show Ideal.fptosi 32 (Ideal.liftRound Int.floor (k0_pay6 (F := Ideal) v (ix1 p))) = _
  rw [quot6_apply]
  rfl

theorem cell10_apply (v : Vec Ideal S1x1x16x128 .f32) (p : Fin 2048) :
    k0_pay10 (F := Ideal) v (ix1 p) = Cert.Tri.cell (pix v p) := by
  unfold k0_pay10
  show Ideal.fptosi 32 (Ideal.liftRound Int.floor (k0_pay7 (F := Ideal) v (ix1 p))) = _
  rw [quot7_apply]
  rfl

/-- The quotient less its cell is the offset of the pixel's coordinate. -/
theorem off11_apply (v : Vec Ideal S1x1x16x128 .f32) (p : Fin 2048) :
    k0_pay11 (F := Ideal) v (ix1 p) = Cert.Tri.off (pix v p) := by
  unfold k0_pay11
  show k0_pay6 (F := Ideal) v (ix1 p) - (((k0_pay9 (F := Ideal) v (ix1 p)).toInt : ℝ) : EReal) = _
  rw [quot6_apply, cell9_apply]
  rfl

theorem off12_apply (v : Vec Ideal S1x1x16x128 .f32) (p : Fin 2048) :
    k0_pay12 (F := Ideal) v (ix1 p) = Cert.Tri.off (pix v p) := by
  unfold k0_pay12
  show k0_pay7 (F := Ideal) v (ix1 p) - (((k0_pay10 (F := Ideal) v (ix1 p)).toInt : ℝ) : EReal) = _
  rw [quot7_apply, cell10_apply]
  rfl

/-- The red plane's offset is kept as a column. -/
theorem off14_apply (v : Vec Ideal S1x1x16x128 .f32) (p : Fin 2048) (u : Fin 1) :
    k0_pay14 (F := Ideal) v (ix2 p u) = Cert.Tri.off (pix v p) := by
  unfold k0_pay14
  rw [col_apply]
  show k0_pay5 (F := Ideal) v (ix1 p) - (((k0_pay8 (F := Ideal) v (ix1 p)).toInt : ℝ) : EReal) = _
  rw [quot5_apply, cell8_apply]
  rfl

/-- One less the red plane's offset, as a column. -/
theorem one17_apply (v : Vec Ideal S1x1x16x128 .f32) (p : Fin 2048) (u : Fin 1) :
    k0_pay17 (F := Ideal) v (ix2 p u) = Cert.Tri.one - Cert.Tri.off (pix v p) := by
  unfold k0_pay17
  refine (subf_apply _ _ _).trans ?_
  rw [off14_apply]
  rfl

/-- The red plane's cell, as a column. -/
theorem cell13_apply (v : Vec Ideal S1x1x16x128 .f32) (p : Fin 2048) (u : Fin 1) :
    k0_pay13 (F := Ideal) v (ix2 p u) = Cert.Tri.cell (pix v p) := by
  unfold k0_pay13
  rw [col_apply, cell8_apply]

/-- The iota row against the red cell. -/
theorem cmp15_apply (v : Vec Ideal S1x1x16x128 .f32) (p : Fin 2048) (j : Fin 33) :
    k0_pay15 (F := Ideal) v (ix2 p j) = IntOp.cmpi .eq (BitVec.ofNat 32 j.val) (Cert.Tri.cell (pix v p)) := by
  unfold k0_pay15
  dsimp only
  rw [cmpi_at, brow_apply, bcol_apply, iota_row_apply, cell13_apply]

/-- The iota row against the red cell plus one. -/
theorem cmp16_apply (v : Vec Ideal S1x1x16x128 .f32) (p : Fin 2048) (j : Fin 33) :
    k0_pay16 (F := Ideal) v (ix2 p j)
      = IntOp.cmpi .eq (BitVec.ofNat 32 j.val) (IntOp.addi (Cert.Tri.cell (pix v p)) 1#32) := by
  unfold k0_pay16
  dsimp only
  rw [cmpi_at, brow_apply, bcol_apply, iota_row_apply, addi_at, cell13_apply]
  rfl

/-! ## The rows -/

/-- A row built from a column of offsets, a column of their complements and two comparisons: at `(p, j)` the complement
    where the first comparison holds plus the offset where the second does. -/
theorem row18_apply (o : FVec Ideal S2048x1 .f32) (c1 c2 : IVec S2048x33 1) (o' : FVec Ideal S2048x1 .f32)
    (p : Fin 2048) (j : Fin 33) :
    k0_pay18 (F := Ideal) o c1 c2 o' (ix2 p j)
      = Scalar.select (c1 (ix2 p j)) (o' (ix2 p (0 : Fin 1))) Cert.Tri.zero
        + Scalar.select (c2 (ix2 p j)) (o (ix2 p (0 : Fin 1))) Cert.Tri.zero := by
  unfold k0_pay18
  simp only [addf_apply, select_apply, broadcast_apply, bcol_apply, shapeCast_self]
  rfl

/-- A row built from the cells and the offsets of 2048 pixels: at `(p, j)`, one less the offset where `j` is the cell,
    plus the offset where `j` is the cell plus one. -/
theorem row19_apply (c : IVec S2048 32) (f : FVec Ideal S2048 .f32) (p : Fin 2048) (j : Fin 33) :
    k0_pay19 (F := Ideal) c f (iota .tc S1x33 32 [1] iota_S1x33_d1_w32) (ix2 p j)
      = Scalar.select (IntOp.cmpi .eq (BitVec.ofNat 32 j.val) (c (ix1 p))) (Cert.Tri.one - f (ix1 p)) Cert.Tri.zero
        + Scalar.select (IntOp.cmpi .eq (BitVec.ofNat 32 j.val) (IntOp.addi (c (ix1 p)) 1#32)) (f (ix1 p))
            Cert.Tri.zero := by
  unfold k0_pay19
  dsimp only
  simp only [addf_apply, select_apply, cmpi_at, addi_at, broadcast_apply, subf_apply, bcol_apply, brow_apply, col_apply,
    shapeCast_self]
  rw [iota_row_apply]
  rfl

/-- The first half of such a row. -/
theorem row22_apply (c : IVec S2048 32) (f : FVec Ideal S2048 .f32) (p : Fin 2048) (j : Fin 33) :
    k0_pay22 (F := Ideal) c f (iota .tc S1x33 32 [1] iota_S1x33_d1_w32) (ix2 p j)
      = Scalar.select (IntOp.cmpi .eq (BitVec.ofNat 32 j.val) (c (ix1 p))) (Cert.Tri.one - f (ix1 p))
          Cert.Tri.zero := by
  unfold k0_pay22 k0_pay20 k0_pay21
  dsimp only
  simp only [select_apply, cmpi_at, broadcast_apply, subf_apply, bcol_apply, brow_apply, col_apply, shapeCast_self]
  rw [iota_row_apply]
  rfl

/-- The second half. -/
theorem row23_apply (c : IVec S2048 32) (f : FVec Ideal S2048 .f32) (p : Fin 2048) (j : Fin 33) :
    k0_pay23 (F := Ideal) c f (iota .tc S1x33 32 [1] iota_S1x33_d1_w32) (ix2 p j)
      = Scalar.select (IntOp.cmpi .eq (BitVec.ofNat 32 j.val) (IntOp.addi (c (ix1 p)) 1#32)) (f (ix1 p))
          Cert.Tri.zero := by
  unfold k0_pay23 k0_pay20 k0_pay21
  dsimp only
  simp only [select_apply, cmpi_at, addi_at, broadcast_apply, bcol_apply, brow_apply, col_apply, shapeCast_self]
  rw [iota_row_apply]
  rfl

/-- The red row (from the first colour plane). -/
theorem row_red (v : Vec Ideal S1x1x16x128 .f32) (p : Fin 2048) (j : Fin 33) :
    k0_pay18 (F := Ideal) (k0_pay14 v) (k0_pay15 v) (k0_pay16 v) (k0_pay17 v) (ix2 p j)
      = Cert.Tri.hat (v (ix4 (0 : Fin 1) (0 : Fin 1) (⟨p.val / 128, by have := p.isLt; omega⟩ : Fin 16)
          (⟨p.val % 128, Nat.mod_lt _ (by decide)⟩ : Fin 128))) j := by
  refine (row18_apply _ _ _ _ p j).trans ?_
  rw [cmp15_apply, cmp16_apply, one17_apply, off14_apply]
  rfl

/-- The green row (from the second colour plane). -/
theorem row_green (v : Vec Ideal S1x1x16x128 .f32) (p : Fin 2048) (j : Fin 33) :
    k0_pay19 (F := Ideal) (k0_pay9 v) (k0_pay11 v) (iota .tc S1x33 32 [1] iota_S1x33_d1_w32) (ix2 p j)
      = Cert.Tri.hat (v (ix4 (0 : Fin 1) (0 : Fin 1) (⟨p.val / 128, by have := p.isLt; omega⟩ : Fin 16)
          (⟨p.val % 128, Nat.mod_lt _ (by decide)⟩ : Fin 128))) j := by
  refine (row19_apply _ _ p j).trans ?_
  rw [cell9_apply, off11_apply]
  rfl

/-- The blue row (from the third colour plane): the kernel keeps its two halves apart and adds them later. -/
theorem row_blue (v : Vec Ideal S1x1x16x128 .f32) (p : Fin 2048) (j : Fin 33) :
    k0_pay22 (F := Ideal) (k0_pay10 v) (k0_pay12 v) (iota .tc S1x33 32 [1] iota_S1x33_d1_w32) (ix2 p j)
        + k0_pay23 (F := Ideal) (k0_pay10 v) (k0_pay12 v) (iota .tc S1x33 32 [1] iota_S1x33_d1_w32) (ix2 p j)
      = Cert.Tri.hat (v (ix4 (0 : Fin 1) (0 : Fin 1) (⟨p.val / 128, by have := p.isLt; omega⟩ : Fin 16)
          (⟨p.val % 128, Nat.mod_lt _ (by decide)⟩ : Fin 128))) j := by
  rw [row22_apply, row23_apply, cell10_apply, off12_apply]
  rfl

end Cert.KernelIdeal.Pay

end
-- ==== Proof.KerPay.lean ====
/-
  What the kernel body leaves in its output block, entry by entry: at (channel, row, column) of the block, the kernel's
  form of the interpolation at the pixel whose three coordinates sit at (row, column) of the three colour planes of the
  input block, over the table block as the 1089 x 99 matrix. The body multiplies the blue and green rows of weights into
  1089 numbers per pixel, contracts them against the matrix, reads the 99 results as 33 x 3 and sums them against the red
  row; the three channels are then stored one plane each.
-/
import proofs.«129195_j52501680226537_1_alg».proof.Proof.Gen.KernelIdeal.Frame
import proofs.«129195_j52501680226537_1_alg».proof.Proof.KerRows
import proofs.«129195_j52501680226537_1_alg».proof.Proof.Spec
import Idealize.ShloMosaic.PureOps.Ideal.Laws
import Idealize.ShloMosaic.Lib.Pipeline.Value

noncomputable section

namespace Cert.KernelIdeal.Pay

open Cert.KernelIdeal Cert.KernelIdeal.Gen Idealize.ShloMosaic Idealize.ShloMosaic.ValueIdx
open scoped BigOperators

/-! ## Changes of layout read at one entry

Each is the same row-major position on both sides, or a spread along an axis of extent one. -/

section Layout
variable {α : Type}

/-- [2048,33] viewed [2048,33,1]: entry (p, r, 0) is entry (p, r). -/
theorem cast_33_331 (x : S2048x33.Idx → α) (h : S2048x33.ShapeCasts S2048x33x1) (p : Fin 2048) (r : Fin 33) (u : Fin 1) :
    shapeCast S2048x33x1 x h (ix3 p r u) = x (ix2 p r) :=
  shapeCast_apply x h _ _ (by
    have hu : u.val = 0 := by omega
    rw [Shape.rowMajor_val_three, Shape.rowMajor_val_two]
    show p.val * 33 + r.val = (p.val * 33 + r.val) * 1 + u.val
    omega)

/-- [2048,33] viewed [2048,1,33]: entry (p, 0, b) is entry (p, b). -/
theorem cast_33_1_33 (x : S2048x33.Idx → α) (h : S2048x33.ShapeCasts S2048x1x33) (p : Fin 2048) (u : Fin 1) (b : Fin 33) :
    shapeCast S2048x1x33 x h (ix3 p u b) = x (ix2 p b) :=
  shapeCast_apply x h _ _ (by
    have hu : u.val = 0 := by omega
    rw [Shape.rowMajor_val_three, Shape.rowMajor_val_two]
    show p.val * 33 + b.val = (p.val * 1 + u.val) * 33 + b.val
    omega)

/-- [2048,99] viewed [2048,33,3]: entry (p, r, c) is entry (p, 3 r + c). -/
theorem cast_99_33_3 (x : S2048x99.Idx → α) (h : S2048x99.ShapeCasts S2048x33x3) (p : Fin 2048) (r : Fin 33) (c : Fin 3) :
    shapeCast S2048x33x3 x h (ix3 p r c)
      = x (ix2 p (⟨r.val * 3 + c.val, by have := r.isLt; have := c.isLt; omega⟩ : Fin 99)) :=
  shapeCast_apply x h _ _ (by
    rw [Shape.rowMajor_val_three, Shape.rowMajor_val_two]
    show p.val * 99 + (r.val * 3 + c.val) = (p.val * 33 + r.val) * 3 + c.val
    omega)

/-- [2048,33,33] viewed [2048,1089]: entry (p, k) is entry (p, k / 33, k % 33). -/
theorem cast_33_33_1089 (x : S2048x33x33.Idx → α) (h : S2048x33x33.ShapeCasts S2048x1089) (p : Fin 2048) (k : Fin 1089) :
    shapeCast S2048x1089 x h (ix2 p k)
      = x (ix3 p (⟨k.val / 33, by have := k.isLt; omega⟩ : Fin 33) (⟨k.val % 33, Nat.mod_lt _ (by decide)⟩ : Fin 33)) :=
  shapeCast_apply x h _ _ (by
    rw [Shape.rowMajor_val_three, Shape.rowMajor_val_two]
    show (p.val * 33 + k.val / 33) * 33 + k.val % 33 = p.val * 1089 + k.val
    have := Nat.div_add_mod k.val 33
    omega)

/-- [2048,33,1] spread to [2048,33,3]: entry (p, r, c) is entry (p, r, 0). -/
theorem bcast_331_333 (x : S2048x33x1.Idx → α) (h : S2048x33x1.Broadcasts S2048x33x3) (p : Fin 2048) (r : Fin 33) (c : Fin 3) :
    broadcastTo S2048x33x3 x h (ix3 p r c) = x (ix3 p r (0 : Fin 1)) :=
  broadcastTo_apply x h _ _ fun a => match a with
    | ⟨0, _⟩ => rfl
    | ⟨1, _⟩ => rfl
    | ⟨2, _⟩ => rfl

/-- [2048,33,1] spread to [2048,33,33]: entry (p, a, b) is entry (p, a, 0). -/
theorem bcast_331_3333 (x : S2048x33x1.Idx → α) (h : S2048x33x1.Broadcasts S2048x33x33) (p : Fin 2048) (a b : Fin 33) :
    broadcastTo S2048x33x33 x h (ix3 p a b) = x (ix3 p a (0 : Fin 1)) :=
  broadcastTo_apply x h _ _ fun ax => match ax with
    | ⟨0, _⟩ => rfl
    | ⟨1, _⟩ => rfl
    | ⟨2, _⟩ => rfl

/-- [2048,1,33] spread to [2048,33,33]: entry (p, a, b) is entry (p, 0, b). -/
theorem bcast_1_33_3333 (x : S2048x1x33.Idx → α) (h : S2048x1x33.Broadcasts S2048x33x33) (p : Fin 2048) (a b : Fin 33) :
    broadcastTo S2048x33x33 x h (ix3 p a b) = x (ix3 p (0 : Fin 1) b) :=
  broadcastTo_apply x h _ _ fun ax => match ax with
    | ⟨0, _⟩ => rfl
    | ⟨1, _⟩ => rfl
    | ⟨2, _⟩ => rfl

end Layout

/-! ## The sum over the red axis -/

/-- The entry of the [2048, 33, 3] array over the entry (p, c) of its sum along the middle axis, at coordinate r of
    that axis, is (p, r, c). -/
theorem lift_eq (p : Fin 2048) (c : Fin 3) (r : Fin 33) :
    reduces_S2048x33x3_S2048x3.lift (ix2 p c) r = ix3 p r c := by
  funext ax; apply Fin.ext
  match ax with
  | ⟨0, _⟩ => rfl
  | ⟨1, _⟩ => rfl
  | ⟨2, _⟩ => rfl

/-! ## The contraction read at one entry -/

/-- The product of a 2048 x 1089 matrix and a 1089 x 99 matrix, added to zero: entry (p, q) is the sum over the
    contracted coordinate of the products of the entries. -/
theorem mm_apply (A : FVec Ideal S2048x1089 .bf16) (B : FVec Ideal S1089x99 .bf16) (p : Fin 2048) (q : Fin 99) :
    matmul (F := Ideal) dot_S2048x1089_S1089x99_S2048x99_1_0_0_1_n_n none A B (constant S2048x99 .f32 0x00000000#32) (ix2 p q)
      = ∑ k : Fin 1089, A (ix2 p k) * B (ix2 k q) := by
  refine (Ideal.matmul_constant_zero_apply _ none A B (ix2 p q)).trans ?_
  rw [← Equiv.sum_comp (contrEquiv1 dot_S2048x1089_S1089x99_S2048x99_1_0_0_1_n_n 1089 rfl rfl).symm]
  refine Finset.sum_congr rfl fun c _ => ?_
  have c2 := contrEquiv1_symm_val dot_S2048x1089_S1089x99_S2048x99_1_0_0_1_n_n 1089 rfl rfl c
  have l2 : dot_S2048x1089_S1089x99_S2048x99_1_0_0_1_n_n.lhsIdx (ix2 p q) ((contrEquiv1 _ 1089 rfl rfl).symm c) = ix2 p c := by
    funext ax; apply Fin.ext
    match ax with
    | ⟨0, _⟩ => simp [DotDims.lhsIdx, dot_S2048x1089_S1089x99_S2048x99_1_0_0_1_n_n]; rfl
    | ⟨1, _⟩ => simp [DotDims.lhsIdx, dot_S2048x1089_S1089x99_S2048x99_1_0_0_1_n_n]; exact c2
  have r2 : dot_S2048x1089_S1089x99_S2048x99_1_0_0_1_n_n.rhsIdx (ix2 p q) ((contrEquiv1 _ 1089 rfl rfl).symm c) = ix2 c q := by
    funext ax; apply Fin.ext
    match ax with
    | ⟨0, _⟩ => simp [DotDims.rhsIdx, dot_S2048x1089_S1089x99_S2048x99_1_0_0_1_n_n]; exact c2
    | ⟨1, _⟩ => simp [DotDims.rhsIdx, dot_S2048x1089_S1089x99_S2048x99_1_0_0_1_n_n]; rfl
  rw [l2, r2]

/-- The sum over the red axis of a red row against a [2048,99] matrix read as [2048,33,3]. -/
theorem redsum_apply (v48 : FVec Ideal S2048x33 .f32) (M : FVec Ideal S2048x99 .f32) (p : Fin 2048) (c : Fin 3) :
    multiReduction (F := Ideal) .add [1] S2048x3
        (mulf (broadcastTo S2048x33x3 (shapeCast S2048x33x1 v48 shapeCasts_S2048x33_S2048x33x1) broadcasts_S2048x33x1_S2048x33x3)
          (shapeCast S2048x33x3 M shapeCasts_S2048x99_S2048x33x3))
        0x00000000#32 reduces_S2048x33x3_S2048x3 (.inl rfl) rfl (ix2 p c)
      = ∑ r : Fin 33, v48 (ix2 p r) * M (ix2 p (⟨r.val * 3 + c.val, by have := r.isLt; have := c.isLt; omega⟩ : Fin 99)) := by
  refine (Ideal.multiReduction_add_single (φ := .f32) _ 0x00000000#32 reduces_S2048x33x3_S2048x3 _ _ (ix2 p c)).trans ?_
  refine Finset.sum_congr rfl fun (r : Fin 33) _ => ?_
  rw [lift_eq, mulf_apply, bcast_331_333, cast_33_331, cast_99_33_3]

/-- The product of a blue row and a green row, flattened to 1089 entries. -/
theorem outer_apply (v90 v69 : FVec Ideal S2048x33 .f32) (p : Fin 2048) (k : Fin 1089) :
    shapeCast S2048x1089
        (mulf (F := Ideal) (broadcastTo S2048x33x33 (shapeCast S2048x33x1 v90 shapeCasts_S2048x33_S2048x33x1) broadcasts_S2048x33x1_S2048x33x33)
          (broadcastTo S2048x33x33 (shapeCast S2048x1x33 v69 shapeCasts_S2048x33_S2048x1x33) broadcasts_S2048x1x33_S2048x33x33))
        shapeCasts_S2048x33x33_S2048x1089 (ix2 p k)
      = v90 (ix2 p (⟨k.val / 33, by have := k.isLt; omega⟩ : Fin 33)) * v69 (ix2 p (⟨k.val % 33, Nat.mod_lt _ (by decide)⟩ : Fin 33)) := by
  rw [cast_33_33_1089, mulf_apply, bcast_331_3333, bcast_1_33_3333, cast_33_331, cast_33_1_33]

/-- The contraction and the sum over the red axis, for any three rows of weights and any matrix. -/
theorem pay1_apply (v48 v69 v85 v89 : FVec Ideal S2048x33 .f32) (v98 : Vec Ideal S1089x99 .bf16) (p : Fin 2048) (c : Fin 3) :
    k0_pay1 (F := Ideal) v48 v69 v85 v89 v98 (ix2 p c)
      = ∑ r : Fin 33, v48 (ix2 p r) *
          ∑ k : Fin 1089, ((v85 (ix2 p (⟨k.val / 33, by have := k.isLt; omega⟩ : Fin 33))
                + v89 (ix2 p (⟨k.val / 33, by have := k.isLt; omega⟩ : Fin 33)))
              * v69 (ix2 p (⟨k.val % 33, Nat.mod_lt _ (by decide)⟩ : Fin 33)))
            * v98 (ix2 k (⟨r.val * 3 + c.val, by have := r.isLt; have := c.isLt; omega⟩ : Fin 99)) := by
  unfold k0_pay1
  dsimp only
  -- the sum over the red axis, against the contraction's result read as [2048, 33, 3]
  refine (redsum_apply v48 _ p c).trans ?_
  refine Finset.sum_congr rfl fun r _ => ?_
  congr 1
  -- the matrix operand's change of layout is to its own shape; the contraction at (p, 3 r + c)
  rw [shapeCast_self]
  refine (mm_apply _ v98 p _).trans ?_
  refine Finset.sum_congr rfl fun k _ => ?_
  congr 1
  -- the change of format is the identity on the extended reals; entry (p, k) of the flattened product
  rw [truncf_apply]
  exact outer_apply (addf v85 v89) v69 p k

/-! ## The three stores -/

section Store
variable {α : Type}

/-- Column `o` of a [2048, 3] array, read as [2048], then [16, 128], then [1, 1, 16, 128]: entry (0, 0, h, w) is
    entry (128 h + w, o) of the array. -/
theorem channel_plane_apply (X : S2048x3.Idx → α) (o : Nat) (ho : o < 3) (hs : S2048x3.Slices ![0, o] S2048x1)
    (u u' : Fin 1) (h : Fin 16) (w : Fin 128) :
    shapeCast S1x1x16x128
        (shapeCast S16x128 (shapeCast S2048 (extractStridedSlice S2048x1 ![0, o] X hs) shapeCasts_S2048x1_S2048)
          shapeCasts_S2048_S16x128)
        shapeCasts_S16x128_S1x1x16x128 (ix4 u u' h w)
      = X (ix2 (⟨h.val * 128 + w.val, by have := h.isLt; have := w.isLt; omega⟩ : Fin 2048) (⟨o, ho⟩ : Fin 3)) := by
  have hu : u.val = 0 := by omega
  have hu' : u'.val = 0 := by omega
  refine (shapeCast_apply _ shapeCasts_S16x128_S1x1x16x128 _ (ix2 h w) (by
    rw [Shape.rowMajor_val_four, Shape.rowMajor_val_two]
    show h.val * 128 + w.val = ((u.val * 1 + u'.val) * 16 + h.val) * 128 + w.val
    omega)).trans ?_
  refine (shapeCast_apply _ shapeCasts_S2048_S16x128 _
    (ix1 (⟨h.val * 128 + w.val, by have := h.isLt; have := w.isLt; omega⟩ : Fin 2048)) (by
    rw [Shape.rowMajor_val_one, Shape.rowMajor_val_two]
    rfl)).trans ?_
  refine (shapeCast_apply _ shapeCasts_S2048x1_S2048 _
    (ix2 (⟨h.val * 128 + w.val, by have := h.isLt; have := w.isLt; omega⟩ : Fin 2048) (0 : Fin 1)) (by
    rw [Shape.rowMajor_val_one, Shape.rowMajor_val_two]
    show (h.val * 128 + w.val) * 1 + 0 = h.val * 128 + w.val
    omega)).trans ?_
  exact extractStridedSlice_apply _ X hs _ _ fun a => match a with
    | ⟨0, _⟩ => by show h.val * 128 + w.val = 0 + (h.val * 128 + w.val); omega
    | ⟨1, _⟩ => by show o = o + 0; omega

end Store

/-! ## The colour planes of the input block and the planes of the output block -/

/-- Plane `o` of the [1, 3, 16, 128] block, at (row, column) of pixel `p = 128 h + w`, is the block at (0, o, h, w). -/
theorem ld_pixel (X : Vec Ideal S1x3x16x128 .f32) (o : Nat) (ho : o < 3)
    (inb : ∀ a, (![0, o, 0, 0] : Fin 4 → Nat) a + S1x1x16x128.size a ≤ S1x3x16x128.size a)
    (p : Fin 2048) (h : Fin 16) (w : Fin 128) (hp : p.val = h.val * 128 + w.val)
    (hh : p.val / 128 < 16) (hw : p.val % 128 < 128) :
    View.ld (Val := Elt Ideal) X (Rect.unit (s := S1x3x16x128) ![0, o, 0, 0] S1x1x16x128.size inb)
        (ix4 (0 : Fin 1) (0 : Fin 1) (⟨p.val / 128, hh⟩ : Fin 16) (⟨p.val % 128, hw⟩ : Fin 128))
      = X (ix4 (0 : Fin 1) (⟨o, ho⟩ : Fin 3) h w) := by
  have hwl := w.isLt
  show X _ = X _
  refine congrArg X (funext fun a => Fin.ext ?_)
  match a with
  | ⟨0, _⟩ => show 0 + 1 * 0 = 0; omega
  | ⟨1, _⟩ => show o + 1 * 0 = o; omega
  | ⟨2, _⟩ => show 0 + 1 * (p.val / 128) = h.val; omega
  | ⟨3, _⟩ => show 0 + 1 * (p.val % 128) = w.val; omega

/-- The entry (0, o, h, w) of the block is the entry (0, 0, h, w) of its plane `o`. -/
theorem emb_plane (o : Nat) (ho : o < 3)
    (inb : ∀ a, (![0, o, 0, 0] : Fin 4 → Nat) a + S1x1x16x128.size a ≤ S1x3x16x128.size a) (h : Fin 16) (w : Fin 128) :
    (Rect.unit (s := S1x3x16x128) ![0, o, 0, 0] S1x1x16x128.size inb).emb (ix4 (0 : Fin 1) (0 : Fin 1) h w)
      = ix4 (0 : Fin 1) (⟨o, ho⟩ : Fin 3) h w := by
  refine funext fun a => Fin.ext ?_
  match a with
  | ⟨0, _⟩ => show 0 + 1 * 0 = 0; omega
  | ⟨1, _⟩ => show o + 1 * 0 = o; omega
  | ⟨2, _⟩ => show 0 + 1 * h.val = h.val; omega
  | ⟨3, _⟩ => show 0 + 1 * w.val = w.val; omega

/-- An entry of plane `o'` is not in plane `o` when `o' < o`. -/
theorem not_mem_plane (o o' : Nat) (ho' : o' < 3) (hlt : o' < o)
    (inb : ∀ a, (![0, o, 0, 0] : Fin 4 → Nat) a + S1x1x16x128.size a ≤ S1x3x16x128.size a) (h : Fin 16) (w : Fin 128) :
    ix4 (0 : Fin 1) (⟨o', ho'⟩ : Fin 3) h w ∉ (Rect.unit (s := S1x3x16x128) ![0, o, 0, 0] S1x1x16x128.size inb).set := by
  intro hm
  have h1 := (Rect.mem_set_unit.mp hm (1 : Fin 4)).1
  have h2 : o ≤ o' := h1
  omega

/-- The three planes stored, the last one first: at (0, c, h, w) the block holds plane `c`'s entry (0, 0, h, w). -/
theorem canon_plane2 (q2 q1 q0 : Vec Ideal S1x1x16x128 .f32) (h : Fin 16) (w : Fin 128) :
    View.canon (Val := Elt Ideal) [⟨r0_2, q2⟩, ⟨r0_1, q1⟩, ⟨r0_0, q0⟩] (ix4 (0 : Fin 1) (2 : Fin 3) h w)
      = q2 (ix4 (0 : Fin 1) (0 : Fin 1) h w) := by
  have e : ix4 (0 : Fin 1) (2 : Fin 3) h w = r0_2.emb (ix4 (0 : Fin 1) (0 : Fin 1) h w) :=
    (emb_plane 2 (by decide) _ h w).symm
  rw [e]
  exact View.canon_cons_emb r0_2 q2 _ _

/-- Plane 1: the entry is not in plane 2, stored last, and is in plane 1, stored before it. -/
theorem canon_plane1 (q2 q1 q0 : Vec Ideal S1x1x16x128 .f32) (h : Fin 16) (w : Fin 128) :
    View.canon (Val := Elt Ideal) [⟨r0_2, q2⟩, ⟨r0_1, q1⟩, ⟨r0_0, q0⟩] (ix4 (0 : Fin 1) (1 : Fin 3) h w)
      = q1 (ix4 (0 : Fin 1) (0 : Fin 1) h w) := by
  have n2 : ix4 (0 : Fin 1) (1 : Fin 3) h w ∉ r0_2.set := not_mem_plane 2 1 (by decide) (by decide) _ h w
  have e : ix4 (0 : Fin 1) (1 : Fin 3) h w = r0_1.emb (ix4 (0 : Fin 1) (0 : Fin 1) h w) :=
    (emb_plane 1 (by decide) _ h w).symm
  refine (View.canon_cons_of_not_mem (Val := Elt Ideal) (⟨r0_2, q2⟩ : View.Piece (Elt Ideal) S1x3x16x128 .f32)
    [⟨r0_1, q1⟩, ⟨r0_0, q0⟩] n2).trans ?_
  rw [e]
  exact View.canon_cons_emb r0_1 q1 _ _

/-- Plane 0: the entry is in neither plane 2 nor plane 1, and is in plane 0, stored first. -/
theorem canon_plane0 (q2 q1 q0 : Vec Ideal S1x1x16x128 .f32) (h : Fin 16) (w : Fin 128) :
    View.canon (Val := Elt Ideal) [⟨r0_2, q2⟩, ⟨r0_1, q1⟩, ⟨r0_0, q0⟩] (ix4 (0 : Fin 1) (0 : Fin 3) h w)
      = q0 (ix4 (0 : Fin 1) (0 : Fin 1) h w) := by
  have n2 : ix4 (0 : Fin 1) (0 : Fin 3) h w ∉ r0_2.set := not_mem_plane 2 0 (by decide) (by decide) _ h w
  have n1 : ix4 (0 : Fin 1) (0 : Fin 3) h w ∉ r0_1.set := not_mem_plane 1 0 (by decide) (by decide) _ h w
  have e : ix4 (0 : Fin 1) (0 : Fin 3) h w = r0_0.emb (ix4 (0 : Fin 1) (0 : Fin 1) h w) :=
    (emb_plane 0 (by decide) _ h w).symm
  refine (View.canon_cons_of_not_mem (Val := Elt Ideal) (⟨r0_2, q2⟩ : View.Piece (Elt Ideal) S1x3x16x128 .f32)
    [⟨r0_1, q1⟩, ⟨r0_0, q0⟩] n2).trans ?_
  refine (View.canon_cons_of_not_mem (Val := Elt Ideal) (⟨r0_1, q1⟩ : View.Piece (Elt Ideal) S1x3x16x128 .f32)
    [⟨r0_0, q0⟩] n1).trans ?_
  rw [e]
  exact View.canon_cons_emb r0_0 q0 _ _

/-! ## The output block -/

/-- The contraction over the three rows of weights of pixel `P = 128 h + w` is the kernel's form at that pixel: the
    red row is the weights of the first plane's coordinate, the green row those of the second plane's, the two halves of
    the blue row add to those of the third plane's, and the matrix is the whole table block. -/
theorem ker_of_rows (x0 : Vec Ideal S1x3x16x128 .f32) (x1 : Vec Ideal S1089x99 .bf16) (c : Fin 3) (h : Fin 16) (w : Fin 128)
    (P : Fin 2048) (hP : P.val = h.val * 128 + w.val) :
    k0_pay1 (F := Ideal)
        (k0_pay18 (k0_pay14 (View.ld x0 r0_0)) (k0_pay15 (View.ld x0 r0_0)) (k0_pay16 (View.ld x0 r0_0)) (k0_pay17 (View.ld x0 r0_0)))
        (k0_pay19 (k0_pay9 (View.ld x0 r0_1)) (k0_pay11 (View.ld x0 r0_1)) (iota .tc S1x33 32 [1] iota_S1x33_d1_w32))
        (k0_pay22 (k0_pay10 (View.ld x0 r0_2)) (k0_pay12 (View.ld x0 r0_2)) (iota .tc S1x33 32 [1] iota_S1x33_d1_w32))
        (k0_pay23 (k0_pay10 (View.ld x0 r0_2)) (k0_pay12 (View.ld x0 r0_2)) (iota .tc S1x33 32 [1] iota_S1x33_d1_w32))
        (View.ld x1 r0_3) (ix2 P c)
      = Cert.Tri.kerVal x1 c (x0 (ix4 (0 : Fin 1) (0 : Fin 3) h w)) (x0 (ix4 (0 : Fin 1) (1 : Fin 3) h w))
          (x0 (ix4 (0 : Fin 1) (2 : Fin 3) h w)) := by
  have e0 : View.ld (Val := Elt Ideal) x0 r0_0 (ix4 (0 : Fin 1) (0 : Fin 1)
        (⟨P.val / 128, by have := P.isLt; omega⟩ : Fin 16) (⟨P.val % 128, Nat.mod_lt _ (by decide)⟩ : Fin 128))
      = x0 (ix4 (0 : Fin 1) (0 : Fin 3) h w) := ld_pixel x0 0 (by decide) _ P h w hP _ _
  have e1 : View.ld (Val := Elt Ideal) x0 r0_1 (ix4 (0 : Fin 1) (0 : Fin 1)
        (⟨P.val / 128, by have := P.isLt; omega⟩ : Fin 16) (⟨P.val % 128, Nat.mod_lt _ (by decide)⟩ : Fin 128))
      = x0 (ix4 (0 : Fin 1) (1 : Fin 3) h w) := ld_pixel x0 1 (by decide) _ P h w hP _ _
  have e2 : View.ld (Val := Elt Ideal) x0 r0_2 (ix4 (0 : Fin 1) (0 : Fin 1)
        (⟨P.val / 128, by have := P.isLt; omega⟩ : Fin 16) (⟨P.val % 128, Nat.mod_lt _ (by decide)⟩ : Fin 128))
      = x0 (ix4 (0 : Fin 1) (2 : Fin 3) h w) := ld_pixel x0 2 (by decide) _ P h w hP _ _
  have e3 : View.ld (Val := Elt Ideal) x1 r0_3 = x1 :=
    View.ld_unit_zero (by funext a; fin_cases a <;> rfl) _ x1
  rw [pay1_apply, e3]
  unfold Cert.Tri.kerVal
  refine Finset.sum_congr rfl fun r _ => ?_
  rw [row_red, e0]
  refine congrArg _ (Finset.sum_congr rfl fun k _ => ?_)
  rw [row_blue, row_green, e1, e2]

/-- The body's output block at one entry. -/
theorem out_apply (x0 : Vec Ideal S1x3x16x128 .f32) (x1 : Vec Ideal S1089x99 .bf16) (c : Fin 3) (h : Fin 16) (w : Fin 128) :
    out0_2 (F := Ideal) x0 x1 (ix4 (0 : Fin 1) c h w)
      = Cert.Tri.kerVal x1 c (x0 (ix4 (0 : Fin 1) (0 : Fin 3) h w)) (x0 (ix4 (0 : Fin 1) (1 : Fin 3) h w))
          (x0 (ix4 (0 : Fin 1) (2 : Fin 3) h w)) := by
  have hc : c = 0 ∨ c = 1 ∨ c = 2 := by fin_cases c <;> simp
  unfold out0_2
  rcases hc with rfl | rfl | rfl
  · refine (canon_plane0 _ _ _ h w).trans ?_
    unfold k0_pay2
    dsimp only
    refine (channel_plane_apply _ 0 (by decide) slices_S2048x3_o0_0_S2048x1 0 0 h w).trans ?_
    exact ker_of_rows x0 x1 0 h w _ rfl
  · refine (canon_plane1 _ _ _ h w).trans ?_
    unfold k0_pay3
    dsimp only
    refine (channel_plane_apply _ 1 (by decide) slices_S2048x3_o0_1_S2048x1 0 0 h w).trans ?_
    exact ker_of_rows x0 x1 1 h w _ rfl
  · refine (canon_plane2 _ _ _ h w).trans ?_
    unfold k0_pay4
    dsimp only
    refine (channel_plane_apply _ 2 (by decide) slices_S2048x3_o0_2_S2048x1 0 0 h w).trans ?_
    exact ker_of_rows x0 x1 2 h w _ rfl

end Cert.KernelIdeal.Pay

end
-- ==== Proof.KerArr.lean ====
/-
  The kernel's result array after the run: each grid point writes the block of the kernel-form array `GK` of the table
  and the pixels that its position names, the blocks tile the array, so the array ends as `GK` everywhere.
-/
import proofs.«129195_j52501680226537_1_alg».proof.Proof.Gen.KernelIdeal.Value
import proofs.«129195_j52501680226537_1_alg».proof.Proof.KerPay
import proofs.«129195_j52501680226537_1_alg».proof.Proof.Spec

noncomputable section

namespace Cert.KernelIdeal.Arr

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The transposed table reshaped to 1089 x 99, at row `k` and column `j`: the table at channel `j % 3`, blue `k / 33`,
    green `k % 33`, red `j / 3`. -/
theorem reshape_transpose_apply (lut : S3x33x33x33.Idx → EReal) (k : Fin 1089) (j : Fin 99) :
    shapeCast S1089x99 (transpose S33x33x33x3 [1, 2, 3, 0] lut transposes_S3x33x33x33_S33x33x33x3_1_2_3_0)
        shapeCasts_S33x33x33x3_S1089x99 (ix2 k j)
      = lut (ix4 (⟨j.val % 3, Nat.mod_lt _ (by decide)⟩ : Fin 3) (⟨k.val / 33, by have := k.isLt; omega⟩ : Fin 33)
          (⟨k.val % 33, Nat.mod_lt _ (by decide)⟩ : Fin 33) (⟨j.val / 3, by have := j.isLt; omega⟩ : Fin 33)) := by
  have hk := k.isLt
  have hj := j.isLt
  refine (shapeCast_apply _ _ (ix2 k j)
    (ix4 (⟨k.val / 33, by omega⟩ : Fin 33) (⟨k.val % 33, Nat.mod_lt _ (by decide)⟩ : Fin 33)
      (⟨j.val / 3, by omega⟩ : Fin 33) (⟨j.val % 3, Nat.mod_lt _ (by decide)⟩ : Fin 3)) ?_).trans ?_
  · rw [Shape.rowMajor_val_four, Shape.rowMajor_val_two]
    show ((k.val / 33 * 33 + k.val % 33) * 33 + j.val / 3) * 3 + j.val % 3 = k.val * 99 + j.val
    omega
  · refine transpose_apply _ _ _ _ _ ?_
    intro b
    match b with
    | ⟨0, _⟩ => rfl
    | ⟨1, _⟩ => rfl
    | ⟨2, _⟩ => rfl
    | ⟨3, _⟩ => rfl

/-- The kernel's matrix window holds the table as the 1089 x 99 matrix. -/
theorem mat_eq (c : Dev nD) : (V m c main_v2 : S1089x99.Idx → EReal) = Cert.Tri.mat (m ((c : Thread nD τ).loc main_arg1)) := by
  have e : (V m c main_v2 : S1089x99.Idx → EReal)
      = (truncf (F := Ideal) .bf16 (shapeCast S1089x99 (transpose S33x33x33x3 [1, 2, 3, 0] (m ((c : Thread nD τ).loc main_arg1) : S3x33x33x33.Idx → EReal) transposes_S3x33x33x33_S33x33x33x3_1_2_3_0) shapeCasts_S33x33x33x3_S1089x99 : FVec Ideal S1089x99 .f32) bitsLt_bf16_f32 : S1089x99.Idx → EReal) := by
    dsimp only [Gen.V, Gen.hostOps0]
    after_results
    rfl
  rw [e]
  funext i
  obtain ⟨k, j, rfl⟩ : ∃ (k : Fin 1089) (j : Fin 99), i = ix2 k j := ⟨i 0, i 1, eq_ix2 i⟩
  exact reshape_transpose_apply _ k j

/-- One block entry: the body's result at (channel `c`, row `h`, column `w`) of a block whose pixels are the pixel
    array's at `e0` and whose matrix is the table's, is the kernel-form array at `e2` of that entry, when both
    embeddings put the block at image `idx 0`, rows from `idx 2 * 16`, columns from `idx 3 * 128`, and all channels. -/
theorem entry_eq (lut : S3x33x33x33.Idx → EReal) (x : S8x3x1024x1024.Idx → EReal)
    (x0 : Vec Ideal S1x3x16x128 .f32) (x1 : Vec Ideal S1089x99 .bf16)
    (e0 e2 : S1x3x16x128.Idx → S8x3x1024x1024.Idx) (idx : Fin 4 → Nat)
    (h1 : (x1 : S1089x99.Idx → EReal) = Cert.Tri.mat lut)
    (h0 : ∀ j : S1x3x16x128.Idx, (x0 j : EReal) = x (e0 j))
    (he0 : ∀ (j : S1x3x16x128.Idx), (e0 j 0).val = idx 0 * 1 + 1 * (j 0).val ∧ (e0 j 1).val = idx 1 * 3 + 1 * (j 1).val
      ∧ (e0 j 2).val = idx 2 * 16 + 1 * (j 2).val ∧ (e0 j 3).val = idx 3 * 128 + 1 * (j 3).val)
    (he2 : ∀ (j : S1x3x16x128.Idx), (e2 j 0).val = idx 0 * 1 + 1 * (j 0).val ∧ (e2 j 1).val = idx 1 * 3 + 1 * (j 1).val
      ∧ (e2 j 2).val = idx 2 * 16 + 1 * (j 2).val ∧ (e2 j 3).val = idx 3 * 128 + 1 * (j 3).val)
    (hidx : idx 1 = 0) (y : S1x3x16x128.Idx) :
    (out0_2 (F := Ideal) x0 x1 y : EReal) = Cert.Tri.GK lut x (e2 y) := by
  obtain ⟨a, c, h, w, rfl⟩ : ∃ (a : Fin 1) (c : Fin 3) (h : Fin 16) (w : Fin 128), y = ix4 a c h w :=
    ⟨y 0, y 1, y 2, y 3, eq_ix4 y⟩
  obtain rfl : a = 0 := Subsingleton.elim _ _
  rw [Cert.KernelIdeal.Pay.out_apply, h0, h0, h0]
  unfold Cert.Tri.GK Cert.Tri.red Cert.Tri.green Cert.Tri.blue
  obtain ⟨a0, a1, a2, a3⟩ := he2 (ix4 (0 : Fin 1) c h w)
  have hc : c = (e2 (ix4 (0 : Fin 1) c h w) 1 : Fin 3) := Fin.ext (by
    show c.val = (e2 (ix4 (0 : Fin 1) c h w) 1).val
    rw [a1, hidx]; show c.val = 0 * 3 + 1 * c.val; omega)
  have hx : ∀ col : Fin 3, e0 (ix4 (0 : Fin 1) col h w)
      = ix4 (e2 (ix4 (0 : Fin 1) c h w) 0 : Fin 8) col (e2 (ix4 (0 : Fin 1) c h w) 2 : Fin 1024) (e2 (ix4 (0 : Fin 1) c h w) 3 : Fin 1024) := by
    intro col
    obtain ⟨b0, b1, b2, b3⟩ := he0 (ix4 (0 : Fin 1) col h w)
    funext ax
    apply Fin.ext
    match ax with
    | ⟨0, _⟩ => show (e0 (ix4 (0 : Fin 1) col h w) 0).val = (e2 (ix4 (0 : Fin 1) c h w) 0).val; rw [b0, a0]
    | ⟨1, _⟩ => show (e0 (ix4 (0 : Fin 1) col h w) 1).val = col.val; rw [b1, hidx]; show 0 * 3 + 1 * col.val = col.val; omega
    | ⟨2, _⟩ => show (e0 (ix4 (0 : Fin 1) col h w) 2).val = (e2 (ix4 (0 : Fin 1) c h w) 2).val; rw [b2, a2]
    | ⟨3, _⟩ => show (e0 (ix4 (0 : Fin 1) col h w) 3).val = (e2 (ix4 (0 : Fin 1) c h w) 3).val; rw [b3, a3]
  rw [hx 0, hx 1, hx 2, h1, ← hc]
  rfl

/-- The block index of every grid point, decided over the 4096 points: point `t` is image `t / 512`, row block
    `t / 8 % 64`, column block `t % 8`, all channels. -/
theorem idx_facts : ∀ t : Fin cfg0.N, win0_2.index t (0 : Fin 4) = t.val / 512 ∧ win0_2.index t (1 : Fin 4) = 0
    ∧ win0_2.index t (2 : Fin 4) = t.val / 8 % 64 ∧ win0_2.index t (3 : Fin 4) = t.val % 8 :=
  (by decide +kernel : ∀ t : Fin grid0.N, _)

/-- WHAT POINT `t` WRITES BACK is block `t` of the kernel-form array of the table and the pixels. -/
theorem flushed_eq (c : Dev nD) (t : Fin cfg0.N) :
    (dats m 0 c).flushed 2 t = ((cfg0.win 2).blk t).view.read (Elt Ideal)
      (Cert.Tri.GK (m ((c : Thread nD τ).loc main_arg1)) (m ((c : Thread nD τ).loc main_arg2))) := by
  rw [Value.flushed2]
  have h1 : (iblk m c 1 t : S1089x99.Idx → EReal) = Cert.Tri.mat (m ((c : Thread nD τ).loc main_arg1)) := by
    funext i
    show V m c main_v2 (((cfg0.win 1).blk t).view.emb i) = _
    have hi : ((cfg0.win 1).blk t).view.emb i = i := by
      funext a; apply Fin.ext
      match a with
      | ⟨0, _⟩ => show 0 * 1089 + 1 * (i 0).val = (i 0).val; omega
      | ⟨1, _⟩ => show 0 * 99 + 1 * (i 1).val = (i 1).val; omega
    rw [hi]
    exact congrFun (mat_eq m c) i
  have h0 : ∀ j : S1x3x16x128.Idx, (iblk m c 0 t j : EReal)
      = m ((c : Thread nD τ).loc main_arg2) (((cfg0.win 0).blk t).view.emb j) := by
    intro j
    show V m c main_arg2 (((cfg0.win 0).blk t).view.emb j) = _
    rw [V_main_arg2]
  funext y
  exact entry_eq (m ((c : Thread nD τ).loc main_arg1)) (m ((c : Thread nD τ).loc main_arg2)) (iblk m c 0 t) (iblk m c 1 t)
    (((cfg0.win 0).blk t).view.emb) (((cfg0.win 2).blk t).view.emb) (win0_2.index t) h1 h0
    (fun j => ⟨rfl, rfl, rfl, rfl⟩) (fun j => ⟨rfl, rfl, rfl, rfl⟩) rfl y

/-- An index of the array is in point `t`'s block iff each coordinate is in the block's range on its axis. -/
theorem mem_blk (t : Fin cfg0.N) (i : S8x3x1024x1024.Idx) :
    i ∈ ((cfg0.win 2).blk t).view.set ↔ ∀ a : Fin 4, win0_2.index t a * S1x3x16x128.size a ≤ (i a).val ∧ (i a).val < win0_2.index t a * S1x3x16x128.size a + S1x3x16x128.size a := by
  show i ∈ ((View.whole main_v3).slice (win0_2.rect t)).set ↔ _
  rw [View.set_slice_whole, Rect.mem_set_unit]
  exact Iff.rfl

/-- Every index of the array is in some point's block: (image `n`, any channel, row `y`, column `x`) is in the
    block of the point `512 n + 8 (y / 16) + x / 128`. -/
theorem cover (i : S8x3x1024x1024.Idx) :
    ∃ t : Fin cfg0.N, (cfg0.win 2).flush t = true ∧ i ∈ ((cfg0.win 2).blk t).view.set := by
  have hi0 : (i 0).val < 8 := (i 0).isLt
  have hi1 : (i 1).val < 3 := (i 1).isLt
  have hi2 : (i 2).val < 1024 := (i 2).isLt
  have hi3 : (i 3).val < 1024 := (i 3).isLt
  have hN : cfg0.N = 4096 := N_0
  let t : Fin cfg0.N := ⟨(i 0).val * 512 + (i 2).val / 16 * 8 + (i 3).val / 128, by rw [hN]; omega⟩
  obtain ⟨e0, e1, e2, e3⟩ := idx_facts t
  have tv : t.val = (i 0).val * 512 + (i 2).val / 16 * 8 + (i 3).val / 128 := rfl
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 3 ≤ (i 1).val ∧ (i 1).val < win0_2.index t (1 : Fin 4) * 3 + 3; omega
  | ⟨2, _⟩ => show win0_2.index t (2 : Fin 4) * 16 ≤ (i 2).val ∧ (i 2).val < win0_2.index t (2 : Fin 4) * 16 + 16; omega
  | ⟨3, _⟩ => show win0_2.index t (3 : Fin 4) * 128 ≤ (i 3).val ∧ (i 3).val < win0_2.index t (3 : Fin 4) * 128 + 128; omega

/-- THE ARRAY after the run is the kernel-form array of the table and the pixels, everywhere. -/
theorem final (c : Dev nD) : (dats m 0 c).arrAt 2 cfg0.N
    = Cert.Tri.GK (m ((c : Thread nD τ).loc main_arg1)) (m ((c : Thread nD τ).loc main_arg2)) :=
  (dats m 0 c).arrAt_eq_of_cover 2 (Cert.Tri.GK (m ((c : Thread nD τ).loc main_arg1)) (m ((c : Thread nD τ).loc main_arg2)))
    (fun t _ => flushed_eq m c t) cover

/-- The run with the result array named. -/
theorem run : θ_run (defs (F := Ideal)) (onTc (τ := τ) (main (F := Ideal))) ⟨m, fun _ => 0, ρ⟩ fun r => ∀ c : Dev nD,
      r.2.mem ((c : Thread nD τ).loc main_v3)
        = Cert.Tri.GK (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Arr

end
-- ==== Proof.RefGather.lean ====
/-
  THE REFERENCE'S TABLE READ. The table flattened to channel x position is gathered with one start index per pixel
  (image, row, column): the result at (channel, image, row, column) is the table's entry of that channel at the pixel's
  start index, read as a signed integer and clamped into the 35937 positions.
-/
import proofs.«129195_j52501680226537_1_alg».proof.Proof.Gen.ReferenceIdeal
import Idealize.ShloMosaic.Lib.ValueIdx

noncomputable section

namespace Cert.ReferenceIdeal.RefRead

open Cert.ReferenceIdeal Cert.ReferenceIdeal.Gen Idealize.ShloMosaic Idealize.ShloMosaic.ValueIdx

local notation "gd" => gather_S3x35937_S8x1024x1024x1_S3x8x1024x1024_0_1_n_n_1_3_31

/-- The gather read at one entry. The operand index of result entry (c, n, h, w) is, on each operand axis, the clamped
    start plus the batching coordinate plus the offset coordinate.
    On the channel axis (axis 0, an offset axis that the start index map does not name) the start is 0, there is no
    batching axis, and the offset coordinate is the result's coordinate on its only offset axis, which is c.
    On the position axis (axis 1, collapsed and named by the start index map) the batching and offset coordinates are
    0 and the start is the start index read at (n, h, w, 0) as a signed integer, clamped into [0, 35937 - 1]. -/
theorem gather_apply {α : Type} (x : S3x35937.Idx → α) (idx : IVec S8x1024x1024x1 32) (c : Fin 3) (n : Fin 8)
    (h w : Fin 1024) :
    Host.gather gather_S3x35937_S8x1024x1024x1_S3x8x1024x1024_0_1_n_n_1_3_31 x idx (ix4 c n h w)
      = x (ix2 c (⟨min (idx (ix4 n h w (0 : Fin 1))).toInt.toNat 35936, by omega⟩ : Fin 35937)) := by
  unfold Host.gather
  congr 1
  funext a
  refine Fin.ext ?_
  match a with
  | ⟨0, _⟩ =>
    -- the channel axis: 0 + 0 + c = c
    show GatherDims.start gd (ix4 c n h w) idx 0 + GatherDims.batchCoord gd (ix4 c n h w) 0
      + GatherDims.offCoord gd (ix4 c n h w) 0 = c.val
    -- axis 0 is not in the start index map [1]
    have hs : GatherDims.start gd (ix4 c n h w) idx 0 = 0 := by
      unfold GatherDims.start
      exact dif_neg (by decide)
    -- there is no batching axis
    have hb : GatherDims.batchCoord gd (ix4 c n h w) 0 = 0 :=
      GatherDims.batchCoord_eq_zero _ _ _ (by decide)
    -- axis 0 is the first (and only) kept operand axis, read by the result's offset axis 0, whose coordinate is c
    have ho : GatherDims.offCoord gd (ix4 c n h w) 0 = c.val := by
      unfold GatherDims.offCoord
      rw [dif_pos (by decide)]
      rfl
    rw [hs, hb, ho, Nat.zero_add]
  | ⟨1, _⟩ =>
    -- the position axis: start + 0 + 0 = start
    show GatherDims.start gd (ix4 c n h w) idx 1 + GatherDims.batchCoord gd (ix4 c n h w) 1
      + GatherDims.offCoord gd (ix4 c n h w) 1 = min (idx (ix4 n h w (0 : Fin 1))).toInt.toNat 35936
    have hb : GatherDims.batchCoord gd (ix4 c n h w) 1 = 0 :=
      GatherDims.batchCoord_eq_zero _ _ _ (by decide)
    -- axis 1 is collapsed, so it is not a kept axis
    have ho : GatherDims.offCoord gd (ix4 c n h w) 1 = 0 :=
      GatherDims.offCoord_eq_zero _ _ _ (by decide)
    have hm : (1 : Fin S3x35937.rank) ∈ GatherDims.startIndexMap gd := by decide
    -- the start index of result entry (c, n, h, w) is read at the result's batch coordinates (n, h, w), in order, with
    -- component 0 on the index vector's axis
    have hsi : GatherDims.siIdx gd (ix4 c n h w)
        ⟨List.idxOf (1 : Fin S3x35937.rank) (GatherDims.startIndexMap gd), List.idxOf_lt_length_iff.2 hm⟩
        = ix4 n h w (0 : Fin 1) := by
      funext b
      refine Fin.ext ?_
      match b with
      | ⟨0, _⟩ => rfl
      | ⟨1, _⟩ => rfl
      | ⟨2, _⟩ => rfl
      | ⟨3, _⟩ => rfl
    -- the clamp's upper bound is the axis size less the slice size, 35937 - 1 = 35936
    have hs : GatherDims.start gd (ix4 c n h w) idx 1 = min (idx (ix4 n h w (0 : Fin 1))).toInt.toNat 35936 := by
      unfold GatherDims.start
      rw [dif_pos hm, hsi]
      rfl
    rw [hs, hb, ho, Nat.add_zero]

end Cert.ReferenceIdeal.RefRead

end
-- ==== Proof.RefRead.lean ====
/-
  The reference's result array, entry by entry: at (image, channel, row, column) the reference's form of the
  interpolation at that pixel, over the table flattened to channel x position.
-/
import proofs.«129195_j52501680226537_1_alg».proof.Proof.Gen.ReferenceIdeal.Run
import proofs.«129195_j52501680226537_1_alg».proof.Proof.RefGather
import proofs.«129195_j52501680226537_1_alg».proof.Proof.Spec
import Idealize.ShloMosaic.Lib.Pipeline.Value

noncomputable section

namespace Cert.ReferenceIdeal.RefRead

open Cert.ReferenceIdeal Cert.ReferenceIdeal.Gen Cert.ReferenceIdeal.Value Idealize.ShloMosaic Idealize.ShloMosaic.TcCoe
open Idealize.SL.Sem Idealize.ShloMosaic.StableHlo Idealize.ShloMosaic.ValueIdx

/-- A per-pixel array spread over the channel axis reads the pixel's entry. -/
theorem spread_apply {α : Type} (W : S8x1024x1024.Idx → α) (n : Fin 8) (c : Fin 3) (h w : Fin 1024) :
    broadcastInDim S8x3x1024x1024 ![0, 1, 2, 3] bcast_S8x1x1024x1024_S8x3x1024x1024_0_1_2_3
        (broadcastInDim S8x1x1024x1024 ![0, 2, 3] bcast_S8x1024x1024_S8x1x1024x1024_0_2_3 W) (ix4 n c h w)
      = W (ix3 n h w) := by
  refine (broadcastInDim_apply _ _ _ (ix4 n c h w) (ix4 n (0 : Fin 1) h w) (fun a => ?_)).trans ?_
  · match a with
    | ⟨0, _⟩ => rfl
    | ⟨1, _⟩ => rfl
    | ⟨2, _⟩ => rfl
    | ⟨3, _⟩ => rfl
  · refine broadcastInDim_apply _ _ _ (ix4 n (0 : Fin 1) h w) (ix3 n h w) (fun a => ?_)
    match a with
    | ⟨0, _⟩ => rfl
    | ⟨1, _⟩ => rfl
    | ⟨2, _⟩ => rfl

/-- A per-pixel array given a trailing axis of one entry reads the pixel's entry. -/
theorem trail_apply {α : Type} (P : S8x1024x1024.Idx → α) (n : Fin 8) (h w : Fin 1024) :
    broadcastInDim S8x1024x1024x1 ![0, 1, 2] bcast_S8x1024x1024_S8x1024x1024x1_0_1_2 P (ix4 n h w (0 : Fin 1))
      = P (ix3 n h w) := by
  refine broadcastInDim_apply _ _ _ (ix4 n h w (0 : Fin 1)) (ix3 n h w) (fun a => ?_)
  match a with
  | ⟨0, _⟩ => rfl
  | ⟨1, _⟩ => rfl
  | ⟨2, _⟩ => rfl

/-- Exchanging the first two axes: (image, channel, row, column) reads (channel, image, row, column). -/
theorem swap_apply {α : Type} (x : S3x8x1024x1024.Idx → α) (n : Fin 8) (c : Fin 3) (h w : Fin 1024) :
    transpose S8x3x1024x1024 [1, 0, 2, 3] x transposes_S3x8x1024x1024_S8x3x1024x1024_1_0_2_3 (ix4 n c h w)
      = x (ix4 c n h w) := by
  refine transpose_apply _ x _ (ix4 n c h w) (ix4 c n h w) (fun b => ?_)
  match b with
  | ⟨0, _⟩ => rfl
  | ⟨1, _⟩ => rfl
  | ⟨2, _⟩ => rfl
  | ⟨3, _⟩ => rfl

/-- ONE CORNER read at (image, channel, row, column): the pixel's weight times the table's entry of that channel at
    the pixel's position, wrapped when negative and clamped into the table. -/
theorem corner_apply (W : FVec Ideal S8x1024x1024 .f32) (T : FVec Ideal S3x35937 .f32) (P : IVec S8x1024x1024 32)
    (n : Fin 8) (c : Fin 3) (h w : Fin 1024) :
    mulf (broadcastInDim S8x3x1024x1024 ![0, 1, 2, 3] bcast_S8x1x1024x1024_S8x3x1024x1024_0_1_2_3
        (broadcastInDim S8x1x1024x1024 ![0, 2, 3] bcast_S8x1024x1024_S8x1x1024x1024_0_2_3 W))
      (transpose S8x3x1024x1024 [1, 0, 2, 3]
        (Host.gather gather_S3x35937_S8x1024x1024x1_S3x8x1024x1024_0_1_n_n_1_3_31 T
          (broadcastInDim S8x1024x1024x1 ![0, 1, 2] bcast_S8x1024x1024_S8x1024x1024x1_0_1_2
            (select (cmpi .slt P (broadcastInDim S8x1024x1024 ![] bcast_S_S8x1024x1024 (constantI S_ 32 0#32)))
              (addi P (broadcastInDim S8x1024x1024 ![] bcast_S_S8x1024x1024 (constantI S_ 32 35937#32))) P)))
        transposes_S3x8x1024x1024_S8x3x1024x1024_1_0_2_3) (ix4 n c h w)
    = W (ix3 n h w) * T (ix2 c (⟨min (Scalar.select (IntOp.cmpi .slt (P (ix3 n h w)) 0#32)
        (IntOp.addi (P (ix3 n h w)) 35937#32) (P (ix3 n h w))).toInt.toNat 35936, by omega⟩ : Fin 35937)) := by
  rw [mulf_apply, spread_apply, swap_apply, gather_apply]
  have e := trail_apply (select (cmpi .slt P (broadcastInDim S8x1024x1024 ![] bcast_S_S8x1024x1024 (constantI S_ 32 0#32)))
    (addi P (broadcastInDim S8x1024x1024 ![] bcast_S_S8x1024x1024 (constantI S_ 32 35937#32))) P) n h w
  refine congrArg (fun p : Fin 35937 => W (ix3 n h w) * T (ix2 c p)) (Fin.ext ?_)
  exact congrArg (fun b : BitVec 32 => min b.toInt.toNat 35936) e

/-- One colour plane: the slice of the pixels at colour `k`, its unit axis dropped, reads the pixel's colour `k`. -/
theorem plane_apply {α : Type} (x : S8x3x1024x1024.Idx → α) (off : Fin S8x3x1024x1024.rank → Nat) (k : Fin 3)
    (hs : S8x3x1024x1024.Slices off S8x1x1024x1024) (h0 : off 0 = 0) (h1 : off 1 = k.val) (h2 : off 2 = 0)
    (h3 : off 3 = 0) (n : Fin 8) (h w : Fin 1024) :
    shapeCast S8x1024x1024 (extractStridedSlice S8x1x1024x1024 off x hs) shapeCasts_S8x1x1024x1024_S8x1024x1024
        (ix3 n h w) = x (ix4 n k h w) := by
  refine (shapeCast_apply _ _ (ix3 n h w) (ix4 n (0 : Fin 1) h w) ?_).trans ?_
  · rw [Shape.rowMajor_val_four, Shape.rowMajor_val_three]
    show ((n.val * 1 + 0) * 1024 + h.val) * 1024 + w.val = (n.val * 1024 + h.val) * 1024 + w.val
    omega
  · refine extractStridedSlice_apply off x hs _ (ix4 n k h w) (fun a => ?_)
    match a with
    | ⟨0, _⟩ => show n.val = off 0 + n.val; omega
    | ⟨1, _⟩ => show k.val = off 1 + 0; omega
    | ⟨2, _⟩ => show h.val = off 2 + h.val; omega
    | ⟨3, _⟩ => show w.val = off 3 + w.val; omega

section Entries
variable (V0 : Valuation τ sig (Elt Ideal)) (n : Fin 8) (h w : Fin 1024)

theorem v1_apply : res_main_v1 V0 (ix3 n h w) = V0 (Proc.devRef .tc main_arg2) (ix4 n (0 : Fin 3) h w) :=
  plane_apply _ _ 0 _ rfl rfl rfl rfl n h w

theorem v3_apply : res_main_v3 V0 (ix3 n h w) = V0 (Proc.devRef .tc main_arg2) (ix4 n (1 : Fin 3) h w) :=
  plane_apply _ _ 1 _ rfl rfl rfl rfl n h w

theorem v5_apply : res_main_v5 V0 (ix3 n h w) = V0 (Proc.devRef .tc main_arg2) (ix4 n (2 : Fin 3) h w) :=
  plane_apply _ _ 2 _ rfl rfl rfl rfl n h w

end Entries

section Entries2
variable (V0 : Valuation τ sig (Elt Ideal)) (n : Fin 8) (h w : Fin 1024)

/-- The red cell of a pixel. -/
theorem v9_apply : res_main_v9 V0 (ix3 n h w)
    = Cert.Tri.cell (V0 (Proc.devRef .tc main_arg2) (ix4 n (0 : Fin 3) h w)) := by
  show Ideal.fptosi 32 (Ideal.liftRound Int.floor (Ideal.div (res_main_v1 V0 (ix3 n h w)) Cert.Tri.bin)) = _
  rw [v1_apply]
  rfl

/-- The green cell of a pixel. -/
theorem v13_apply : res_main_v13 V0 (ix3 n h w)
    = Cert.Tri.cell (V0 (Proc.devRef .tc main_arg2) (ix4 n (1 : Fin 3) h w)) := by
  show Ideal.fptosi 32 (Ideal.liftRound Int.floor (Ideal.div (res_main_v3 V0 (ix3 n h w)) Cert.Tri.bin)) = _
  rw [v3_apply]
  rfl

/-- The blue cell of a pixel. -/
theorem v17_apply : res_main_v17 V0 (ix3 n h w)
    = Cert.Tri.cell (V0 (Proc.devRef .tc main_arg2) (ix4 n (2 : Fin 3) h w)) := by
  show Ideal.fptosi 32 (Ideal.liftRound Int.floor (Ideal.div (res_main_v5 V0 (ix3 n h w)) Cert.Tri.bin)) = _
  rw [v5_apply]
  rfl

/-- The red offset of a pixel. -/
theorem v21_apply : res_main_v21 V0 (ix3 n h w)
    = Cert.Tri.off (V0 (Proc.devRef .tc main_arg2) (ix4 n (0 : Fin 3) h w)) := by
  show Ideal.div (res_main_v1 V0 (ix3 n h w)) Cert.Tri.bin - (((res_main_v9 V0 (ix3 n h w)).toInt : ℝ) : EReal) = _
  rw [v1_apply, v9_apply]
  rfl

/-- The green offset of a pixel. -/
theorem v25_apply : res_main_v25 V0 (ix3 n h w)
    = Cert.Tri.off (V0 (Proc.devRef .tc main_arg2) (ix4 n (1 : Fin 3) h w)) := by
  show Ideal.div (res_main_v3 V0 (ix3 n h w)) Cert.Tri.bin - (((res_main_v13 V0 (ix3 n h w)).toInt : ℝ) : EReal) = _
  rw [v3_apply, v13_apply]
  rfl

/-- The blue offset of a pixel. -/
theorem v29_apply : res_main_v29 V0 (ix3 n h w)
    = Cert.Tri.off (V0 (Proc.devRef .tc main_arg2) (ix4 n (2 : Fin 3) h w)) := by
  show Ideal.div (res_main_v5 V0 (ix3 n h w)) Cert.Tri.bin - (((res_main_v17 V0 (ix3 n h w)).toInt : ℝ) : EReal) = _
  rw [v5_apply, v17_apply]
  rfl

/-- The flat position of a pixel's lowest corner. -/
theorem v37_apply : res_main_v37 V0 (ix3 n h w)
    = Cert.Tri.base (V0 (Proc.devRef .tc main_arg2) (ix4 n (0 : Fin 3) h w))
        (V0 (Proc.devRef .tc main_arg2) (ix4 n (1 : Fin 3) h w))
        (V0 (Proc.devRef .tc main_arg2) (ix4 n (2 : Fin 3) h w)) := by
  show IntOp.addi (IntOp.addi (res_main_v9 V0 (ix3 n h w)) (IntOp.muli (res_main_v13 V0 (ix3 n h w)) 33#32))
      (IntOp.muli (IntOp.muli (res_main_v17 V0 (ix3 n h w)) 33#32) 33#32) = _
  rw [v9_apply, v13_apply, v17_apply]
  rfl

/-- The table reshaped to channel x position reads, at position `q`, the table at (q / 1089, q / 33 % 33, q % 33). -/
theorem reshape_apply (x : S3x33x33x33.Idx → EReal) (i : S3x35937.Idx) :
    shapeCast S3x35937 x shapeCasts_S3x33x33x33_S3x35937 i = Cert.Tri.flat x i := by
  refine shapeCast_apply x _ i (ix4 (⟨(i 0).val, idx2_lt0 i⟩ : Fin 3)
    (⟨(i 1).val / 1089, by have := idx2_lt1 i; omega⟩ : Fin 33)
    (⟨(i 1).val / 33 % 33, Nat.mod_lt _ (by decide)⟩ : Fin 33)
    (⟨(i 1).val % 33, Nat.mod_lt _ (by decide)⟩ : Fin 33)) ?_
  rw [Shape.rowMajor_val_four, Shape.rowMajor_val_two]
  have hq := idx2_lt1 i
  show (((i 0).val * 33 + (i 1).val / 1089) * 33 + (i 1).val / 33 % 33) * 33 + (i 1).val % 33
    = (i 0).val * 35937 + (i 1).val
  omega

/-- The table reshaped to channel x position is the table flattened. -/
theorem v38_eq : res_main_v38 V0 = Cert.Tri.flat (V0 (Proc.devRef .tc main_arg1)) :=
  funext fun i => reshape_apply _ i

end Entries2

section Entries3
variable (V0 : Valuation τ sig (Elt Ideal)) (n : Fin 8) (h w : Fin 1024)

/-- The position of the corner displaced by 0. -/
theorem v80_apply : res_main_v80 V0 (ix3 n h w)
    = IntOp.addi (Cert.Tri.base (V0 (Proc.devRef .tc main_arg2) (ix4 n (0 : Fin 3) h w))
        (V0 (Proc.devRef .tc main_arg2) (ix4 n (1 : Fin 3) h w))
        (V0 (Proc.devRef .tc main_arg2) (ix4 n (2 : Fin 3) h w))) 0#32 := by
  show IntOp.addi (res_main_v37 V0 (ix3 n h w)) 0#32 = _
  rw [v37_apply]

/-- The position of the corner displaced by 1. -/
theorem v93_apply : res_main_v93 V0 (ix3 n h w)
    = IntOp.addi (Cert.Tri.base (V0 (Proc.devRef .tc main_arg2) (ix4 n (0 : Fin 3) h w))
        (V0 (Proc.devRef .tc main_arg2) (ix4 n (1 : Fin 3) h w))
        (V0 (Proc.devRef .tc main_arg2) (ix4 n (2 : Fin 3) h w))) 1#32 := by
  show IntOp.addi (res_main_v37 V0 (ix3 n h w)) 1#32 = _
  rw [v37_apply]

/-- The position of the corner displaced by 33. -/
theorem v107_apply : res_main_v107 V0 (ix3 n h w)
    = IntOp.addi (Cert.Tri.base (V0 (Proc.devRef .tc main_arg2) (ix4 n (0 : Fin 3) h w))
        (V0 (Proc.devRef .tc main_arg2) (ix4 n (1 : Fin 3) h w))
        (V0 (Proc.devRef .tc main_arg2) (ix4 n (2 : Fin 3) h w))) 33#32 := by
  show IntOp.addi (res_main_v37 V0 (ix3 n h w)) 33#32 = _
  rw [v37_apply]

/-- The position of the corner displaced by 34. -/
theorem v121_apply : res_main_v121 V0 (ix3 n h w)
    = IntOp.addi (Cert.Tri.base (V0 (Proc.devRef .tc main_arg2) (ix4 n (0 : Fin 3) h w))
        (V0 (Proc.devRef .tc main_arg2) (ix4 n (1 : Fin 3) h w))
        (V0 (Proc.devRef .tc main_arg2) (ix4 n (2 : Fin 3) h w))) 34#32 := by
  show IntOp.addi (res_main_v37 V0 (ix3 n h w)) 34#32 = _
  rw [v37_apply]

/-- The position of the corner displaced by 1089. -/
theorem v135_apply : res_main_v135 V0 (ix3 n h w)
    = IntOp.addi (Cert.Tri.base (V0 (Proc.devRef .tc main_arg2) (ix4 n (0 : Fin 3) h w))
        (V0 (Proc.devRef .tc main_arg2) (ix4 n (1 : Fin 3) h w))
        (V0 (Proc.devRef .tc main_arg2) (ix4 n (2 : Fin 3) h w))) 1089#32 := by
  show IntOp.addi (res_main_v37 V0 (ix3 n h w)) 1089#32 = _
  rw [v37_apply]

/-- The position of the corner displaced by 1090. -/
theorem v149_apply : res_main_v149 V0 (ix3 n h w)
    = IntOp.addi (Cert.Tri.base (V0 (Proc.devRef .tc main_arg2) (ix4 n (0 : Fin 3) h w))
        (V0 (Proc.devRef .tc main_arg2) (ix4 n (1 : Fin 3) h w))
        (V0 (Proc.devRef .tc main_arg2) (ix4 n (2 : Fin 3) h w))) 1090#32 := by
  show IntOp.addi (res_main_v37 V0 (ix3 n h w)) 1090#32 = _
  rw [v37_apply]

/-- The position of the corner displaced by 1122. -/
theorem v163_apply : res_main_v163 V0 (ix3 n h w)
    = IntOp.addi (Cert.Tri.base (V0 (Proc.devRef .tc main_arg2) (ix4 n (0 : Fin 3) h w))
        (V0 (Proc.devRef .tc main_arg2) (ix4 n (1 : Fin 3) h w))
        (V0 (Proc.devRef .tc main_arg2) (ix4 n (2 : Fin 3) h w))) 1122#32 := by
  show IntOp.addi (res_main_v37 V0 (ix3 n h w)) 1122#32 = _
  rw [v37_apply]

/-- The position of the corner displaced by 1123. -/
theorem v177_apply : res_main_v177 V0 (ix3 n h w)
    = IntOp.addi (Cert.Tri.base (V0 (Proc.devRef .tc main_arg2) (ix4 n (0 : Fin 3) h w))
        (V0 (Proc.devRef .tc main_arg2) (ix4 n (1 : Fin 3) h w))
        (V0 (Proc.devRef .tc main_arg2) (ix4 n (2 : Fin 3) h w))) 1123#32 := by
  show IntOp.addi (res_main_v37 V0 (ix3 n h w)) 1123#32 = _
  rw [v37_apply]

end Entries3

/-- THE RESULT ARRAY of the composed program is the interpolation in the reference's form, entry by entry. -/
theorem result_eq (V0 : Valuation τ sig (Elt Ideal)) :
    val4 V0 (Proc.devRef .tc main_v189)
      = Cert.Tri.G (V0 (Proc.devRef .tc main_arg1)) (V0 (Proc.devRef .tc main_arg2)) := by
  rw [val4_main_v189]
  funext i
  obtain ⟨n, c, h, w, rfl⟩ : ∃ (n : Fin 8) (c : Fin 3) (h w : Fin 1024), i = ix4 n c h w :=
    ⟨i 0, i 1, i 2, i 3, eq_ix4 i⟩
  -- the entry is the sum of eight corners, each the pixel's weight times the table entry at the corner's position
  simp only [addf_apply, res_main_v147]
  rw [corner_apply, corner_apply, corner_apply, corner_apply, corner_apply, corner_apply, corner_apply, corner_apply]
  -- each weight is a product of three factors, per axis the offset f or 1 - f; each position is the
  -- lowest corner's plus the displacement; the reshaped table is the flattened table
  simp only [mulf_apply, subf_apply, v21_apply, v25_apply, v29_apply, v80_apply, v93_apply, v107_apply,
    v121_apply, v135_apply, v149_apply, v163_apply, v177_apply, v38_eq]
  rfl

/-- The run with the result array named. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v189)
        = Cert.Tri.G (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run (defs (F := Ideal)) _ _).mono
    (fun _ h c => ⟨(h c).2.1.trans ((val4_main_v189 (launchContents m c)).symm.trans (result_eq (launchContents m c))),
      (h c).2.2⟩)
    (Cert.ReferenceIdeal.Value.run (F := Ideal) m ρ)

end Cert.ReferenceIdeal.RefRead

end
-- ==== Proof.lean ====
/-
  A colour look-up by trilinear interpolation: three channels in a 33 x 33 x 33 table, applied to every pixel of eight
  1024 x 1024 images whose three colour coordinates are reals in [0, 1).

  Both programs divide each coordinate by the same bin width, take the floor as the coordinate's cell and the rest as
  its offset inside the cell. The reference adds the cell's eight corners, each table entry weighted by a product of
  three one-axis weights (`1 - offset` on the near side, `offset` on the far side). The kernel writes each axis's two
  weights into a row of 33 numbers that is zero elsewhere, multiplies the blue and green rows into 1089 numbers,
  contracts them against the table laid out as a 1089 x 99 matrix, and sums the 33 x 3 result against the red row.
  A row that is zero off two positions turns each of the kernel's sums into two terms, the eight products are the
  reference's eight weights up to the order of their factors, and the matrix entry at row `b * 33 + g`, column
  `r * 3 + c` is the table entry the reference reads at flat position `b * 1089 + g * 33 + r` of channel `c`.
  Inside [0, 1) every cell is at most 31, so the far side of every cell is still a table position and no flat position
  is negative or past the table's end; and since the inputs are reals the products distribute over the sums.

  The modules: Spec (the two forms of the result as functions of the table and the pixels), Scalar (they are equal on
  reals in [0, 1)), PreFacts (the precondition says the inputs are such reals), KerPay and KerArr (the kernel's result
  array is the kernel's form), RefRead (the reference's result array is the reference's form).
-/
import proofs.«129195_j52501680226537_1_alg».proof.Defs
import proofs.«129195_j52501680226537_1_alg».proof.Proof.Gen.Kernel
import proofs.«129195_j52501680226537_1_alg».proof.Proof.Gen.Kernel.Skeleton
import proofs.«129195_j52501680226537_1_alg».proof.Proof.Gen.Kernel.Launch
import proofs.«129195_j52501680226537_1_alg».proof.Proof.Gen.Kernel.Points
import proofs.«129195_j52501680226537_1_alg».proof.Proof.Gen.Kernel.Frame
import proofs.«129195_j52501680226537_1_alg».proof.Proof.Gen.KernelIdeal
import proofs.«129195_j52501680226537_1_alg».proof.Proof.Gen.KernelIdeal.Skeleton
import proofs.«129195_j52501680226537_1_alg».proof.Proof.Gen.KernelIdeal.Launch
import proofs.«129195_j52501680226537_1_alg».proof.Proof.Gen.KernelIdeal.Points
import proofs.«129195_j52501680226537_1_alg».proof.Proof.Gen.KernelIdeal.Frame
import proofs.«129195_j52501680226537_1_alg».proof.Proof.Gen.ReferenceIdeal
import proofs.«129195_j52501680226537_1_alg».proof.Proof.Gen.Pre_finite_inputs
import proofs.«129195_j52501680226537_1_alg».proof.Proof.Gen.KernelIdeal.Value
import proofs.«129195_j52501680226537_1_alg».proof.Proof.Gen.ReferenceIdeal.Run
import proofs.«129195_j52501680226537_1_alg».proof.Proof.Spec
import proofs.«129195_j52501680226537_1_alg».proof.Proof.Scalar
import proofs.«129195_j52501680226537_1_alg».proof.Proof.PreFacts
import proofs.«129195_j52501680226537_1_alg».proof.Proof.KerArr
import proofs.«129195_j52501680226537_1_alg».proof.Proof.RefRead
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of array operations: it runs, and none of them writes an argument. -/
theorem frame_referenceIdeal : Cert.frame_ReferenceIdeal := fun m ρ _ =>
  (θ_run Cert.ReferenceIdeal.defs _ _).mono (fun _ h c => (h c).2) (Cert.ReferenceIdeal.RefRead.run m ρ)

/-- The idealization rewrote nothing. -/
theorem preserves : Cert.preserves_Kernel_KernelIdeal := trivial

/-- Over the extended reals, from memories that agree on the arguments and satisfy the precondition, the kernel's result
    array is the kernel's form of the interpolation, the reference's the reference's form, and on a table of reals and
    pixels in [0, 1) the two forms are one array. The table itself is returned untouched by both. -/
theorem algebraic : Cert.algebraic_KernelIdeal_ReferenceIdeal := by
  intro m ρ m' ρ' hpre hagree
  refine ⟨fun c => m ((c.tc : Thread Cert.KernelIdeal.nD Cert.KernelIdeal.τ).loc Cert.KernelIdeal.main_arg1),
    fun c => Cert.Tri.G (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ?_) (Cert.KernelIdeal.Arr.run m ρ)
    obtain ⟨h3, h0, h1, h2⟩ := h c
    obtain ⟨hl, hx⟩ := Cert.PreFacts.of_pre _ _ _ (hpre c)
    exact ⟨h1, h3.trans (Cert.Tri.GK_eq_G _ _ hl hx), h0, h1, h2⟩
  · refine (θ_run Cert.ReferenceIdeal.defs _ _).mono (fun r h c => ?_) (Cert.ReferenceIdeal.RefRead.run m' ρ')
    obtain ⟨h189, h0, h1, h2⟩ := h c
    obtain ⟨e0, e1, e2⟩ := hagree c
    exact ⟨h1.trans e1, h189.trans (by rw [e1, e2]), h0, h1, h2⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
